-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x16 : Shape := ⟨2, ![100000, 16]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S100000x16 : S_.BroadcastsInDim S100000x16 (![] : Fin 0 → Fin S100000x16.rank)
  reducesTo_S100000x16_S_d0_1 : S100000x16.ReducesTo [0, 1] S_

variable [Facts]

def fn_part1 {F : FTy → Type} [FloatOps F] (main_arg1 : IVec S100000x16 32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 100000#32
  let main_v24 : IVec S100000x16 32 := broadcastInDim S100000x16 ![] bcast_S_S100000x16 main_c_8
  let main_v25 : IVec S100000x16 1 := cmpi .slt main_arg1 main_v24
  let main_c_9 : IVec S_ 1 := constantI S_ 1 1#1
  let main_v26 : IVec S_ 1 := (fun x v => Host.reduce IntOp.andi x v reducesTo_S100000x16_S_d0_1 h_S_) main_v25 main_c_9
  let main_v27 : IVec S_ 1 := andi main_v23 main_v26
  main_v27

def fn {F : FTy → Type} [FloatOps F] (main_arg0 : FVec F S100000x128 .f32) (main_arg1 : IVec S100000x16 32) (main_arg2 : FVec F S128x256 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_v13 main_v16
-- ==== Kernel.lean ====
abbrev S100000x128 : Shape := ⟨2, ![100000, 128]⟩
abbrev S100000x16 : Shape := ⟨2, ![100000, 16]⟩
abbrev S128x256 : Shape := ⟨2, ![128, 256]⟩
abbrev S128 : Shape := ⟨1, ![128]⟩
abbrev S_ : Shape := ⟨0, ![]⟩
abbrev S100000x16x1 : Shape := ⟨3, ![100000, 16, 1]⟩
abbrev S1 : Shape := ⟨1, ![1]⟩
abbrev S1x1x1 : Shape := ⟨3, ![1, 1, 1]⟩
abbrev S100000x16x128 : Shape := ⟨3, ![100000, 16, 128]⟩
abbrev S128x128 : Shape := ⟨2, ![128, 128]⟩
abbrev S1x128 : Shape := ⟨2, ![1, 128]⟩
abbrev S1000x128 : Shape := ⟨2, ![1000, 128]⟩
abbrev S1000x16x128 : Shape := ⟨3, ![1000, 16, 128]⟩
abbrev S1000x16x1 : Shape := ⟨3, ![1000, 16, 1]⟩
abbrev S1000x1 : Shape := ⟨2, ![1000, 1]⟩
abbrev S1000 : Shape := ⟨1, ![1000]⟩

abbrev nBuf : Space → Nat
  | .hbm => 46
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S100000x16, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .i32⟩
  | .hbm, ⟨7, _⟩ => ⟨S_, .i32⟩
  | .hbm, ⟨8, _⟩ => ⟨S100000x16, .i32⟩
  | .hbm, ⟨9, _⟩ => ⟨S100000x16, .i32⟩
  | .hbm, ⟨10, _⟩ => ⟨S_, .i32⟩
  | .hbm, ⟨11, _⟩ => ⟨S100000x16, .i32⟩
  | .hbm, ⟨12, _⟩ => ⟨S100000x16, .i1⟩
  | .hbm, ⟨13, _⟩ => ⟨S100000x16, .f32⟩
  | .hbm, ⟨14, _⟩ => ⟨S100000x16x1, .f32⟩
  | .hbm, ⟨15, _⟩ => ⟨S_, .i32⟩
  | .hbm, ⟨16, _⟩ => ⟨S100000x16, .i32⟩
  | .hbm, ⟨17, _⟩ => ⟨S100000x16, .i1⟩
  | .hbm, ⟨18, _⟩ => ⟨S_, .i32⟩
  | .hbm, ⟨19, _⟩ => ⟨S100000x16, .i32⟩
  | .hbm, ⟨20, _⟩ => ⟨S100000x16, .i32⟩
  | .hbm, ⟨21, _⟩ => ⟨S100000x16, .i32⟩
  | .hbm, ⟨22, _⟩ => ⟨S100000x16x1, .i32⟩
  | .hbm, ⟨23, _⟩ => ⟨S1, .i32⟩
  | .hbm, ⟨24, _⟩ => ⟨S_, .i32⟩
  | .hbm, ⟨25, _⟩ => ⟨S100000x16x1, .i32⟩
  | .hbm, ⟨26, _⟩ => ⟨S100000x16x1, .i1⟩
  | .hbm, ⟨27, _⟩ => ⟨S1x1x1, .i32⟩
  | .hbm, ⟨28, _⟩ => ⟨S100000x16x1, .i32⟩
  | .hbm, ⟨29, _⟩ => ⟨S100000x16x1, .i1⟩
  | .hbm, ⟨30, _⟩ => ⟨S100000x16x1, .i1⟩
  | .hbm, ⟨31, _⟩ => ⟨S_, .i1⟩
  | .hbm, ⟨32, _⟩ => ⟨S100000x16, .i1⟩
  | .hbm, ⟨33, _⟩ => ⟨S100000x16x128, .f32⟩
  | .hbm, ⟨34, _⟩ => ⟨S100000x16x128, .i1⟩
  | .hbm, ⟨35, _⟩ => ⟨S_, .f32⟩
  | .hbm, ⟨36, _⟩ => ⟨S100000x16x128, .f32⟩
  | .hbm, ⟨37, _⟩ => ⟨S100000x16x128, .f32⟩
  | .hbm, ⟨38, _⟩ => ⟨S128x128, .f32⟩
  | .hbm, ⟨39, _⟩ => ⟨S128x128, .f32⟩
  | .hbm, ⟨40, _⟩ => ⟨S128x128, .bf16⟩
  | .hbm, ⟨41, _⟩ => ⟨S128x128, .bf16⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .local _ .vmem, ⟨0, _⟩ => ⟨S1000x128, .f32⟩
  | .local _ .vmem, ⟨1, _⟩ => ⟨S1000x128, .f32⟩
  | .local _ .vmem, ⟨2, _⟩ => ⟨S1000x16x128, .f32⟩
  | .local _ .vmem, ⟨3, _⟩ => ⟨S1000x16x128, .f32⟩
  | .local _ .vmem, ⟨4, _⟩ => ⟨S1000x16x1, .f32⟩
  | .local _ .vmem, ⟨5, _⟩ => ⟨S1000x16x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1000x128, .f32⟩
  | .local _ .vmem, ⟨12, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_cst : Ref sig .tc := ⟨.hbm, 35, rfl⟩
abbrev main_call1_v15 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  bcast_S_S100000x16x1 : S_.BroadcastsInDim S100000x16x1 (![] : Fin 0 → Fin S100000x16x1.rank)
  bcast_S1_S1x1x1_2 : S1.BroadcastsInDim S1x1x1 (![2] : Fin 1 → Fin S1x1x1.rank)
  bcast_S1x1x1_S100000x16x1_0_1_2 : S1x1x1.BroadcastsInDim S100000x16x1 (![0, 1, 2] : Fin 3 → Fin S100000x16x1.rank)
  reducesTo_S100000x16x1_S100000x16_d2 : S100000x16x1.ReducesTo [2] S100000x16
  h_S_ : 0 < S_.numel
  bcast_S100000x16_S100000x16x128_0_1 : S100000x16.BroadcastsInDim S100000x16x128 (![0, 1] : Fin 2 → Fin S100000x16x128.rank)
  bcast_S_S100000x16x128 : S_.BroadcastsInDim S100000x16x128 (![] : Fin 0 → Fin S100000x16x128.rank)
  slices_S128x256_S128x128_0_0 : S128x256.Slices ![0, 0] S128x128
  slices_S128x256_S128x128_0_128 : S128x256.Slices ![0, 128] S128x128
  bitsLt_bf16_f32 : FTy.bits .bf16 < FTy.bits .f32
  shapeCasts_S128_S1x128 : S128.ShapeCasts S1x128
  inb_S1000x16x1_S1000x16x1_0_0_0 : ∀ a, (![0, 0, 0] : Fin 3 → Nat) a + S1000x16x1.size a ≤ S1000x16x1.size a
  h_S1000x16x1 : 0 < S1000x16x1.numel
  shapeCasts_S1000x16x1_S1000x16x1 : S1000x16x1.ShapeCasts S1000x16x1
  inb_S1000x16x128_S1000x16x128_0_0_0 : ∀ a, (![0, 0, 0] : Fin 3 → Nat) a + S1000x16x128.size a ≤ S1000x16x128.size a
  h_S1000x16x128 : 0 < S1000x16x128.numel
  shapeCasts_S1000x16x128_S1000x16x128 : S1000x16x128.ShapeCasts S1000x16x128
  reduces_S1000x16x1_S1000x1 : S1000x16x1.Reduces [1] S1000x1
  broadcasts_S1000x16x1_S1000x16x128 : S1000x16x1.Broadcasts S1000x16x128
  reduces_S1000x16x128_S1000x128 : S1000x16x128.Reduces [1] S1000x128
  broadcasts_S1000x1_S1000x128 : S1000x1.Broadcasts S1000x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S1000 : S1000x128.Reduces [1] S1000
  shapeCasts_S1000_S1000x1 : S1000.ShapeCasts S1000x1
  gather_S100000x128_S100000x16x1_S100000x16x128_2_0_n_n_0_2_1128_wf : GatherDims.WF S100000x128 S100000x16x1 S100000x16x128 [2] [0] [] [0] [] 2 ![1, 128]
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16x128.size a ≤ S100000x16x128.size a
  hwx0_1 : ∀ i : grid0.Coords, EltTy.bits .f32 = 32 ∨ (Rect.block (s := S100000x16x128) S1000x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16x1.size a ≤ S100000x16x1.size a
  hwx0_2 : ∀ i : grid0.Coords, EltTy.bits .f32 = 32 ∨ (Rect.block (s := S100000x16x1) S1000x16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x128.size a ≤ S100000x128.size a
  hwx0_8 : ∀ i : grid0.Coords, EltTy.bits .f32 = 32 ∨ (Rect.block (s := S100000x128) S1000x128.size (cc0_transform_8 i) (hinb0_8 i)).WholeWords (EltTy.packing .f32)

variable [Facts₀]

def gather_S100000x128_S100000x16x1_S100000x16x128_2_0_n_n_0_2_1128 : GatherDims S100000x128 S100000x16x1 S100000x16x128 where
  offsetDims := [2]
  collapsedSliceDims := [0]
  operandBatchingDims := []
  startIndicesBatchingDims := []
  startIndexMap := [0]
  indexVectorDim := 2
  sliceSizes := ![1, 128]
  wf := gather_S100000x128_S100000x16x1_S100000x16x128_2_0_n_n_0_2_1128_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1000x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000x16 : Shape := ⟨2, ![100000, 16]⟩
abbrev S128x256 : Shape := ⟨2, ![128, 256]⟩
abbrev S128 : Shape := ⟨1, ![128]⟩
abbrev S_ : Shape := ⟨0, ![]⟩
abbrev S100000x16x1 : Shape := ⟨3, ![100000, 16, 1]⟩
abbrev S100000x16x128 : Shape := ⟨3, ![100000, 16, 128]⟩
abbrev S100000x1 : Shape := ⟨2, ![100000, 1]⟩
abbrev S100000x256 : Shape := ⟨2, ![100000, 256]⟩
abbrev S256x128 : Shape := ⟨2, ![256, 128]⟩
abbrev S1x128 : Shape := ⟨2, ![1, 128]⟩
abbrev S100000 : Shape := ⟨1, ![100000]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x16, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .i32⟩
  | .hbm, ⟨7, _⟩ => ⟨S100000x16, .i32⟩
  | .hbm, ⟨8, _⟩ => ⟨S100000x16, .i1⟩
  | .hbm, ⟨9, _⟩ => ⟨S100000x16, .f32⟩
  | .hbm, ⟨10, _⟩ => ⟨S100000x16x1, .f32⟩
  | .hbm, ⟨11, _⟩ => ⟨S_, .i32⟩
  | .hbm, ⟨12, _⟩ => ⟨S_, .i32⟩
  | .hbm, ⟨13, _⟩ => ⟨S100000x16, .i32⟩
  | .hbm, ⟨14, _⟩ => ⟨S100000x16, .i32⟩
  | .hbm, ⟨15, _⟩ => ⟨S_, .i32⟩
  | .hbm, ⟨16, _⟩ => ⟨S100000x16, .i32⟩
  | .hbm, ⟨17, _⟩ => ⟨S100000x16, .i1⟩
  | .hbm, ⟨18, _⟩ => ⟨S_, .i32⟩
  | .hbm, ⟨19, _⟩ => ⟨S100000x16, .i32⟩
  | .hbm, ⟨20, _⟩ => ⟨S100000x16, .i32⟩
  | .hbm, ⟨21, _⟩ => ⟨S100000x16, .i32⟩
  | .hbm, ⟨22, _⟩ => ⟨S100000x16x1, .i32⟩
  | .hbm, ⟨23, _⟩ => ⟨S100000x16x128, .f32⟩
  | .hbm, ⟨24, _⟩ => ⟨S_, .f32⟩
  | .hbm, ⟨25, _⟩ => ⟨S100000x1, .f32⟩
  | .hbm, ⟨26, _⟩ => ⟨S_, .f32⟩
  | .hbm, ⟨27, _⟩ => ⟨S_, .f32⟩
  | .hbm, ⟨28, _⟩ => ⟨S100000x1, .f32⟩
  | .hbm, ⟨29, _⟩ => ⟨S100000x1, .f32⟩
  | .hbm, ⟨30, _⟩ => ⟨S100000x16x128, .f32⟩
  | .hbm, ⟨31, _⟩ => ⟨S100000x16x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x256, .f32⟩
  | .hbm, ⟨37, _⟩ => ⟨S256x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000, .f32⟩
  | .hbm, ⟨53, _⟩ => ⟨S100000x1, .f32⟩
  | .hbm, ⟨54, _⟩ => ⟨S_, .f32⟩
  | .hbm, ⟨55, _⟩ => ⟨S100000x1, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .i1⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  reducesTo_S100000x16x1_S100000x1_d1 : S100000x16x1.ReducesTo [1] S100000x1
  h_S_ : 0 < S_.numel
  bcast_S_S100000x1 : S_.BroadcastsInDim S100000x1 (![] : Fin 0 → Fin S100000x1.rank)
  bcast_S100000x16x1_S100000x16x128_0_1_2 : S100000x16x1.BroadcastsInDim S100000x16x128 (![0, 1, 2] : Fin 3 → Fin S100000x16x128.rank)
  reducesTo_S100000x16x128_S100000x128_d1 : S100000x16x128.ReducesTo [1] S100000x128
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  bcast_S100000_S100000x1_0 : S100000.BroadcastsInDim S100000x1 (![0] : Fin 1 → Fin S100000x1.rank)
  bcast_S_S100000x128 : S_.BroadcastsInDim S100000x128 (![] : Fin 0 → Fin S100000x128.rank)
  gather_S100000x128_S100000x16x1_S100000x16x128_2_0_n_n_0_2_1128_wf : GatherDims.WF S100000x128 S100000x16x1 S100000x16x128 [2] [0] [] [0] [] 2 ![1, 128]
  dot_S100000x256_S256x128_S100000x128_1_0_0_1_n_n_wf : DotDims.WF S100000x256 S256x128 S100000x128 [1] [0] [0] [1] [] []

variable [Facts₀]

def gather_S100000x128_S100000x16x1_S100000x16x128_2_0_n_n_0_2_1128 : GatherDims S100000x128 S100000x16x1 S100000x16x128 where
  offsetDims := [2]
  collapsedSliceDims := [0]
  operandBatchingDims := []
  startIndicesBatchingDims := []
  startIndexMap := [0]
  indexVectorDim := 2
  sliceSizes := ![1, 128]
  wf := gather_S100000x128_S100000x16x1_S100000x16x128_2_0_n_n_0_2_1128_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Pre.lean ====
/-
  What the precondition says about the neighbour indices: its last conjunct is the conjunction, over all faces and all
  sixteen neighbour slots, of "the index is below 100000" (a signed comparison); so under the precondition every
  neighbour index is below 100000.
-/
import proofs.«427107_j12919261627019_2_alg».proof.Defs
import Idealize.ShloMosaic.Lib.ReduceAll
import Idealize.ShloMosaic.Lib.StableHlo.Predicate

noncomputable section

namespace Cert.PreDecode

open Idealize.ShloMosaic Idealize.ShloMosaic.TcCoe Idealize.SL.Sem

/-- Under the precondition every neighbour index is below 100000. -/
theorem adj_lt [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S100000x16.Idx) :
    BitVec.slt ((m ((c.tc : Thread Cert.KernelIdeal.nD Cert.KernelIdeal.τ).loc Cert.KernelIdeal.main_arg1) : IVec Cert.KernelIdeal.S100000x16 32) i) 100000#32 = true := by
  -- the precondition's word at the one scalar index
  have h := congrFun (hpre c) (fun a => a.elim0)
  -- its last operation is the conjunction of the float part with the all-reduce of the comparisons
  have h2 := (IntOp.andi_eq_one.1 h).2
  haveI : Subsingleton Cert.Pre_finite_inputs.S_.Idx := ⟨fun a b => funext fun d => d.elim0⟩
  -- an all-reduce by "and" that is 1 met a 1 at every index
  have h3 := Host.reduce_andi_all _ _ _ _ _ h2 i
  -- the comparison at i is the signed "less than" against the broadcast constant 100000
  exact (StableHlo.Predicate.ofBool_eq_one_iff _).1 h3

end Cert.PreDecode

end
-- ==== Proof.Spec.lean ====
/-
  The face layer, one face at a time, on the extended reals.

  For a face with features x (128 numbers), sixteen neighbour rows nb j and their validity marks mk j:
    * the neighbours' masked mean of feature f is  (∑ j, nb j f * mk j) / max 1 (∑ j, mk j);
    * the linear layer applied to the joined row [x, mean] with weights w (256 numbers per output) and bias b is
      ∑ k < 256, [x, mean] k * w k + b  -- or, split at the joint, (∑ k < 128, x k * w k) + (∑ k < 128, mean k * w (128 + k)) + b:
      the two are equal because addition of extended reals is commutative and associative (no finiteness is needed);
    * the row h of 128 outputs is normalised by its mean and variance, scaled, shifted, and passed through the leaky
      rectifier.  One program divides by sqrt (var + eps), the other multiplies by rsqrt (var + eps).  A variance is a
      quotient of a sum of squares by 128, so it is never negative, and var + eps is positive (possibly +∞); on positive
      arguments d / sqrt v and d * rsqrt v are the same extended real, for every d.
-/
import Idealize.ShloMosaic.PureOps.Ideal
import Idealize.ShloMosaic.PureOps.Ideal.Laws
import Idealize.ShloMosaic.Lib.ValueIdx

noncomputable section

namespace Cert.FaceLayer

open Idealize.ShloMosaic

/-- The literal words both programs carry: 1, 128, the variance's epsilon, the rectifier's slope, 0. -/
abbrev cOne : EReal := Ideal.ofBits .f32 0x3F800000#32
abbrev c128 : EReal := Ideal.ofBits .f32 0x43000000#32
abbrev cEps : EReal := Ideal.ofBits .f32 0x3727C5AC#32
abbrev cSlope : EReal := Ideal.ofBits .f32 0x3E4CCCCD#32
abbrev cZero : EReal := Ideal.ofBits .f32 0x00000000#32

/-- The neighbours' masked mean of one feature: the marked neighbours' sum over the number of marks, at least one. -/
def meanNb (nb mk : Fin 16 → EReal) : EReal :=
  Ideal.div (∑ j : Fin 16, nb j * mk j) (max cOne (∑ j : Fin 16, mk j))

/-- The joined row [x, y]. -/
def join (x y : Fin 128 → EReal) (k : Fin 256) : EReal :=
  if h : k.val < 128 then x ⟨k.val, h⟩ else y ⟨k.val - 128, by omega⟩

/-- One output of the linear layer on the joined row: one contraction of 256 terms, then the bias. -/
def linJoined (x y : Fin 128 → EReal) (w : Fin 256 → EReal) (b : EReal) : EReal :=
  (∑ k : Fin 256, join x y k * w k) + b

/-- The same output with the contraction split at the joint. -/
def linSplit (x y w1 w2 : Fin 128 → EReal) (b : EReal) : EReal :=
  ((∑ k : Fin 128, x k * w1 k) + (∑ k : Fin 128, y k * w2 k)) + b

/-- A row's mean and variance (the variance about that mean), both as quotients by the word 128. -/
def rowMean (h : Fin 128 → EReal) : EReal := Ideal.div (∑ k : Fin 128, h k) c128
def rowVar (h : Fin 128 → EReal) : EReal :=
  Ideal.div (∑ k : Fin 128, (h k - rowMean h) * (h k - rowMean h)) c128

/-- The leaky rectifier: z where z ≥ 0, slope * z elsewhere. -/
def leaky (z : EReal) : EReal := Scalar.select (Ideal.cmp .oge z cZero) z (cSlope * z)

/-- Output o of the normalised, scaled, shifted, rectified row: dividing by the square root. -/
def actDiv (h : Fin 128 → EReal) (o : Fin 128) (g be : EReal) : EReal :=
  leaky (Ideal.div (h o - rowMean h) (Ideal.sqrt (rowVar h + cEps)) * g + be)

/-- The same with the reciprocal square root as a factor. -/
def actRsqrt (h : Fin 128 → EReal) (o : Fin 128) (g be : EReal) : EReal :=
  leaky ((h o - rowMean h) * Ideal.rsqrt (rowVar h + cEps) * g + be)

/-- THE LAYER at face p, output o: from the faces' features, the gathered neighbour rows, their marks, the weights
    (output by joined input), bias, scale and shift. -/
def layer (ff : Fin 100000 → Fin 128 → EReal) (nb : Fin 100000 → Fin 16 → Fin 128 → EReal) (mk : Fin 100000 → Fin 16 → EReal)
    (W : Fin 128 → Fin 256 → EReal) (b g be : Fin 128 → EReal) (p : Fin 100000) (o : Fin 128) : EReal :=
  actDiv (fun o' => linJoined (ff p) (fun f => meanNb (fun j => nb p j f) (mk p)) (W o') (b o')) o (g o) (be o)

/-! ## The two laws -/

/-- Splitting the 256-term contraction at the joint: commutativity and associativity of + alone. -/
theorem linSplit_eq_linJoined (x y : Fin 128 → EReal) (w : Fin 256 → EReal) (b : EReal) :
    linSplit x y (fun k => w ⟨k.val, by omega⟩) (fun k => w ⟨k.val + 128, by omega⟩) b = linJoined x y w b := by
  unfold linSplit linJoined
  congr 1
  have hs := Fin.sum_univ_add (fun k : Fin (128 + 128) => join x y k * w k)
  refine Eq.trans ?_ hs.symm
  congr 1

/-! ## Dividing by the square root, multiplying by its reciprocal -/

/-- The word 0x43000000 is the real number 128. -/
theorem c128_eq : c128 = ((128 : ℝ) : EReal) := by
  simp [c128, Ideal.ofBits, Ideal.ieee]
  rw [← EReal.coe_mul]
  exact congrArg _ (by norm_num)

/-- The variance's epsilon is a positive number. -/
theorem cEps_pos : 0 < cEps := by
  simp [cEps, Ideal.ofBits, Ideal.ieee]
  rw [← EReal.coe_mul]
  exact EReal.coe_pos.mpr (by positivity)

/-- A square is never negative, infinities included. -/
theorem mul_self_nonneg' (d : EReal) : 0 ≤ d * d := by
  induction d using EReal.rec with
  | bot => simp
  | coe r => exact_mod_cast mul_self_nonneg r
  | top => simp

/-- A quotient of a non-negative extended real by 128 is non-negative. -/
theorem div128_nonneg {s : EReal} (hs : 0 ≤ s) : 0 ≤ Ideal.div s c128 := by
  rw [c128_eq, Ideal.div_coe (by norm_num : (128 : ℝ) ≠ 0)]
  exact mul_nonneg hs (by exact_mod_cast (by norm_num : (0 : ℝ) ≤ 1 / 128))

/-- A row's variance is non-negative. -/
theorem rowVar_nonneg (h : Fin 128 → EReal) : 0 ≤ rowVar h :=
  div128_nonneg (Finset.sum_nonneg fun k _ => mul_self_nonneg' _)

/-- On a positive argument, dividing by the square root is multiplying by the reciprocal square root. -/
theorem div_sqrt_eq_mul_rsqrt (d : EReal) {v : EReal} (hv : 0 < v) :
    Ideal.div d (Ideal.sqrt v) = d * Ideal.rsqrt v := by
  induction v using EReal.rec with
  | bot => exact absurd hv (by simp)
  | top =>
    show Ideal.div d ⊤ = d * 0
    unfold Ideal.div
    rw [if_neg (by simp), EReal.inv_top]
  | coe r =>
    have hr : 0 < r := by exact_mod_cast hv
    have hs : 0 < Real.sqrt r := Real.sqrt_pos.mpr hr
    have e1 : Ideal.sqrt (r : EReal) = (Real.sqrt r : EReal) := by
      show (if r < 0 then (⊥ : EReal) else (Real.sqrt r : EReal)) = _
      rw [if_neg (not_lt.mpr hr.le)]
    have e2 : Ideal.rsqrt (r : EReal) = (((Real.sqrt r)⁻¹ : ℝ) : EReal) := by
      show (if r < 0 then (⊥ : EReal) else if r = 0 then (⊤ : EReal) else (((Real.sqrt r)⁻¹ : ℝ) : EReal)) = _
      rw [if_neg (not_lt.mpr hr.le), if_neg hr.ne']
    rw [e1, e2]
    unfold Ideal.div
    rw [if_neg (by exact_mod_cast hs.ne'), EReal.coe_inv]

/-- The two normalisations agree on every row. -/
theorem actRsqrt_eq_actDiv (h : Fin 128 → EReal) (o : Fin 128) (g be : EReal) : actRsqrt h o g be = actDiv h o g be := by
  unfold actRsqrt actDiv
  rw [div_sqrt_eq_mul_rsqrt _ (lt_of_lt_of_le cEps_pos (le_add_of_nonneg_left (rowVar_nonneg h)))]

end Cert.FaceLayer

end
-- ==== Proof.Arrays.lean ====
/-
  The arrays the kernel's region finds, named with their literal types, and the region's result written as ONE function
  of them: entry (p, o) of the result depends on face p's features, its sixteen gathered neighbour rows and their marks,
  and the two halves of the weights, the bias, the scale and the shift at output o — the layer of Spec.lean in its split,
  reciprocal-square-root form.
-/
import proofs.«427107_j12919261627019_2_alg».proof.Proof.Gen.KernelIdeal.Frame
import proofs.«427107_j12919261627019_2_alg».proof.Proof.Spec

noncomputable section

namespace Cert.KernelArrays

open Idealize.ShloMosaic Idealize.ShloMosaic.TcCoe Idealize.ShloMosaic.ValueIdx Idealize.SL.Sem
open Cert.KernelIdeal Cert.KernelIdeal.Gen Cert.FaceLayer

variable (m : (ℓ : Loc nD τ sig) → Buf (Elt Ideal) ℓ)

/-- The faces' features, the gathered neighbour rows, the marks, the two weight halves, bias, scale, shift: as the region finds them. -/
abbrev ffArr (c : Dev nD) : Vec Ideal S100000x128 .f32 := V m c main_arg0
abbrev nbArr (c : Dev nD) : Vec Ideal S100000x16x128 .f32 := V m c main_v5
abbrev mkArr (c : Dev nD) : Vec Ideal S100000x16x1 .f32 := V m c main_v4
abbrev w1Arr (c : Dev nD) : Vec Ideal S128x128 .bf16 := V m c main_v8
abbrev w2Arr (c : Dev nD) : Vec Ideal S128x128 .bf16 := V m c main_v9
abbrev bArr (c : Dev nD) : Vec Ideal S1x128 .f32 := V m c main_v10
abbrev gArr (c : Dev nD) : Vec Ideal S1x128 .f32 := V m c main_v11
abbrev beArr (c : Dev nD) : Vec Ideal S1x128 .f32 := V m c main_v12

/-- Entry (p, o) of the region's result, from the arrays it finds. -/
def outAt (c : Dev nD) (p : Fin 100000) (o : Fin 128) : EReal :=
  actRsqrt (fun o' => linSplit (fun k => ffArr m c (ix2 p k))
      (fun f => meanNb (fun j => nbArr m c (ix3 p j f)) (fun j => mkArr m c (ix3 p j (0 : Fin 1))))
      (fun k => w1Arr m c (ix2 o' k)) (fun k => w2Arr m c (ix2 o' k)) (bArr m c (ix2 (0 : Fin 1) o')))
    o (gArr m c (ix2 (0 : Fin 1) o)) (beArr m c (ix2 (0 : Fin 1) o))

/-- The region's result array. -/
def outArr (c : Dev nD) : Vec Ideal S100000x128 .f32 :=
  fun i => outAt m c ⟨(i 0).val, (i 0).isLt⟩ ⟨(i 1).val, (i 1).isLt⟩

theorem outArr_ix2 (c : Dev nD) (p : Fin 100000) (o : Fin 128) : outArr m c (ix2 p o) = outAt m c p o := rfl

end Cert.KernelArrays

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KernelPay.lean ====
/-
  One entry of the row the kernel's body normalises: at row r, output o of the block, before the normalisation, the body
  holds the linear layer in its split form — the features row times row o of the first weight block, plus the
  neighbours' masked mean row times row o of the second weight block, plus the bias at o.  (The weight blocks are
  transposed inside the body, so the product contracts each block's SECOND axis; a change of float format is the identity
  on extended reals; a product into a zero accumulator and a lane or sublane sum into a zero accumulator are plain sums.)
-/
import proofs.«427107_j12919261627019_2_alg».proof.Proof.Gen.KernelIdeal.Skeleton
import proofs.«427107_j12919261627019_2_alg».proof.Proof.Spec
import proofs.«427107_j12919261627019_2_alg».proof.Proof.LibMatmul
import Idealize.ShloMosaic.Lib.ValueLayout

noncomputable section

namespace Cert.KernelPay

open Idealize.ShloMosaic Idealize.ShloMosaic.ValueIdx
open Cert.KernelIdeal Cert.KernelIdeal.Gen Cert.FaceLayer

/-- The printed dimension numbers are those of the plain 1000×128 by 128×128 product. -/
theorem dot_eq_plain : dot_S1000x128_S128x128_S1000x128_1_0_0_1_n_n = DotDims.plain 1000 128 128 := rfl

/-- The sum over the sixteen neighbours of a [1000,16,1] block, at row r. -/
theorem sum16x1_at (X : FVec Ideal S1000x16x1 .f32) (hφ : FKind.Formats .f32)
    (hacc : (0x00000000#32 : BitVec 32) = FKind.add.neutral .f32 hφ) (r : Fin 1000) :
    multiReduction (F := Ideal) .add [1] S1000x1 X 0x00000000#32 reduces_S1000x16x1_S1000x1 hφ hacc (ix2 r (0 : Fin 1))
      = ∑ j : Fin 16, X (ix3 r j (0 : Fin 1)) := by
  refine (Ideal.multiReduction_add_single X 0x00000000#32 reduces_S1000x16x1_S1000x1 hφ hacc (ix2 r (0 : Fin 1))).trans ?_
  refine Finset.sum_congr rfl fun j _ => congrArg X ?_
  funext a
  refine Fin.ext ?_
  match a with
  | ⟨0, _⟩ => rfl
  | ⟨1, _⟩ => rfl
  | ⟨2, _⟩ => rfl

/-- The sum over the sixteen neighbours of a [1000,16,128] block, at row r, feature f. -/
theorem sum16x128_at (X : FVec Ideal S1000x16x128 .f32) (hφ : FKind.Formats .f32)
    (hacc : (0x00000000#32 : BitVec 32) = FKind.add.neutral .f32 hφ) (r : Fin 1000) (f : Fin 128) :
    multiReduction (F := Ideal) .add [1] S1000x128 X 0x00000000#32 reduces_S1000x16x128_S1000x128 hφ hacc (ix2 r f)
      = ∑ j : Fin 16, X (ix3 r j f) := by
  refine (Ideal.multiReduction_add_single X 0x00000000#32 reduces_S1000x16x128_S1000x128 hφ hacc (ix2 r f)).trans ?_
  refine Finset.sum_congr rfl fun j _ => congrArg X ?_
  funext a
  refine Fin.ext ?_
  match a with
  | ⟨0, _⟩ => rfl
  | ⟨1, _⟩ => rfl
  | ⟨2, _⟩ => rfl

/-- A [1000,16,1] block broadcast along the features reads, at (r, j, f), the block at (r, j, 0). -/
theorem bcast_mark_at (X : FVec Ideal S1000x16x1 .f32) (r : Fin 1000) (j : Fin 16) (f : Fin 128) :
    broadcastTo S1000x16x128 X broadcasts_S1000x16x1_S1000x16x128 (ix3 r j f) = X (ix3 r j (0 : Fin 1)) := by
  refine broadcastTo_apply X broadcasts_S1000x16x1_S1000x16x128 (ix3 r j f) (ix3 r j (0 : Fin 1)) fun a => ?_
  match a with
  | ⟨0, _⟩ => rfl
  | ⟨1, _⟩ => rfl
  | ⟨2, _⟩ => rfl

/-- A [1000,1] column broadcast along the features reads, at (r, f), the column at (r, 0). -/
theorem bcast_col_at (X : FVec Ideal S1000x1 .f32) (r : Fin 1000) (f : Fin 128) :
    broadcastTo S1000x128 X broadcasts_S1000x1_S1000x128 (ix2 r f) = X (ix2 r (0 : Fin 1)) := by
  refine broadcastTo_apply X broadcasts_S1000x1_S1000x128 (ix2 r f) (ix2 r (0 : Fin 1)) fun a => ?_
  match a with
  | ⟨0, _⟩ => rfl
  | ⟨1, _⟩ => rfl

/-- The neighbours' masked mean as the body computes it, at (r, f). -/
theorem mean_at (P0 : Vec Ideal S1000x16x1 .f32) (P1 : Vec Ideal S1000x16x128 .f32) (hφ : FKind.Formats .f32)
    (hacc : (0x00000000#32 : BitVec 32) = FKind.add.neutral .f32 hφ) (r : Fin 1000) (f : Fin 128) :
    divf (F := Ideal)
        (multiReduction .add [1] S1000x128
          (mulf (shapeCast S1000x16x128 P1 shapeCasts_S1000x16x128_S1000x16x128)
            (broadcastTo S1000x16x128 (shapeCast S1000x16x1 P0 shapeCasts_S1000x16x1_S1000x16x1)
              broadcasts_S1000x16x1_S1000x16x128))
          0x00000000#32 reduces_S1000x16x128_S1000x128 hφ hacc)
        (broadcastTo S1000x128
          (maximumf (broadcast S1000x1 (FloatOps.ofBits FTy.f32 0x3F800000#32))
            (multiReduction .add [1] S1000x1 (shapeCast S1000x16x1 P0 shapeCasts_S1000x16x1_S1000x16x1)
              0x00000000#32 reduces_S1000x16x1_S1000x1 hφ hacc))
          broadcasts_S1000x1_S1000x128) (ix2 r f)
      = meanNb (fun j => P1 (ix3 r j f)) (fun j => P0 (ix3 r j (0 : Fin 1))) := by
  rw [shapeCast_self, shapeCast_self]
  unfold meanNb
  rw [divf_apply, sum16x128_at, bcast_col_at, maximumf_apply, sum16x1_at]
  refine congrArg₂ Ideal.div (Finset.sum_congr rfl fun j _ => ?_) rfl
  rw [mulf_apply, bcast_mark_at]

/-- A 1000×128 block times a TRANSPOSED 128×128 block, into a zero accumulator, at (r, o): the contraction runs along
    the weight block's second axis. -/
theorem mm_at (X : FVec Ideal S1000x128 .bf16) (W : FVec Ideal S128x128 .bf16) (r : Fin 1000) (o : Fin 128) :
    matmul dot_S1000x128_S128x128_S1000x128_1_0_0_1_n_n none X
        (transpose S128x128 [1, 0] (shapeCast S128x128 W shapeCasts_S128x128_S128x128) transposes_S128x128_p1_0_S128x128)
        (constant S1000x128 FTy.f32 0x00000000#32) (ix2 r o)
      = ∑ k : Fin 128, X (ix2 r k) * W (ix2 o k) := by
  rw [shapeCast_self, dot_eq_plain]
  refine (Cert.Matmul.matmul_plain_apply none X _ r o).trans ?_
  refine Finset.sum_congr rfl fun k _ => ?_
  rw [transpose_ix2_apply]

/-- The pre-normalisation row at (r, o). -/
theorem pay2_at (P0 : Vec Ideal S1000x16x1 .f32) (P1 : Vec Ideal S1000x16x128 .f32) (P2 : Vec Ideal S1000x128 .f32)
    (P3 P4 : Vec Ideal S128x128 .bf16) (P5 : Vec Ideal S1x128 .f32) (r : Fin 1000) (o : Fin 128) :
    k0_pay2 (F := Ideal) P0 P1 P2 P3 P4 P5 (ix2 r o)
      = linSplit (fun k => P2 (ix2 r k))
          (fun f => meanNb (fun j => P1 (ix3 r j f)) (fun j => P0 (ix3 r j (0 : Fin 1))))
          (fun k => P3 (ix2 o k)) (fun k => P4 (ix2 o k)) (P5 (ix2 (0 : Fin 1) o)) := by
  unfold k0_pay2
  dsimp only
  unfold linSplit
  rw [addf_apply, addf_apply, mm_at, mm_at, broadcastTo_1b_ab_apply, shapeCast_self P5]
  refine congrArg₂ (· + ·) (congrArg₂ (· + ·) rfl (Finset.sum_congr rfl fun k _ => ?_)) rfl
  rw [truncf_apply]
  exact congrArg (· * P4 (ix2 o k)) (mean_at P0 P1 _ _ r k)

end Cert.KernelPay

end
-- ==== Proof.KernelRow.lean ====
/-
  One entry of the block the kernel's body leaves: at row r, output o of the block, the body's value is the layer of
  Spec.lean (split contraction, reciprocal square root) of row r of the features block, rows (r, ·) of the neighbour and
  mark blocks, row o of each weight block, and entry o of the bias, scale and shift blocks.
-/
import proofs.«427107_j12919261627019_2_alg».proof.Proof.Gen.KernelIdeal.Value
import proofs.«427107_j12919261627019_2_alg».proof.Proof.Spec
import proofs.«427107_j12919261627019_2_alg».proof.Proof.KernelPay

noncomputable section

namespace Cert.KernelRow

open Idealize.ShloMosaic Idealize.ShloMosaic.ValueIdx
open Cert.KernelIdeal Cert.KernelIdeal.Gen Cert.FaceLayer

/-- A block's sum along its second axis, read at row r, is the sum of that row's 128 entries. -/
theorem sum_row (X : FVec Ideal S1000x128 .f32) (r : Fin 1000) :
    multiReduction .add [1] S1000 X 0x00000000#32 reduces_S1000x128_S1000 (.inl rfl) rfl (ix1 r)
      = ∑ k : Fin 128, X (ix2 r k) := by
  refine (Ideal.multiReduction_add_single X 0x00000000#32 reduces_S1000x128_S1000 (.inl rfl) rfl (ix1 r)).trans ?_
  show ∑ k : Fin 128, X (reduces_S1000x128_S1000.lift (ix1 r) k) = ∑ k : Fin 128, X (ix2 r k)
  refine Finset.sum_congr rfl (fun k _ => congrArg X ?_)
  funext a
  apply Fin.ext
  match a with
  | ⟨0, _⟩ => rfl
  | ⟨1, _⟩ => rfl

/-- The block minus its rows' means (each row's sum over the word 128, spread back along the row): entry (r, k) is the
    row's entry k minus the row's mean. -/
theorem centered_at (H : FVec Ideal S1000x128 .f32) (r : Fin 1000) (k : Fin 128) :
    (subf H (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128)) (ix2 r k)
      = H (ix2 r k) - rowMean (fun o' => H (ix2 r o')) := by
  show FloatOps.subf (H (ix2 r k)) ((broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128) (ix2 r k)) = _
  have e : (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128) (ix2 r k)
      = rowMean (fun o' => H (ix2 r o')) := by
    refine (broadcastTo_apply _ _ (ix2 r k) (ix2 r (0 : Fin 1)) (fun a => match a with | ⟨0, _⟩ => by show r.val = (if (1000 : Nat) = 1 then 0 else r.val); rw [if_neg (by decide)] | ⟨1, _⟩ => by show 0 = (if (1 : Nat) = 1 then 0 else k.val); rw [if_pos rfl])).trans ?_
    show FloatOps.divf ((shapeCast S1000x1 (multiReduction .add [1] S1000 H 0x00000000#32 reduces_S1000x128_S1000 (.inl rfl) rfl) shapeCasts_S1000_S1000x1) (ix2 r (0 : Fin 1))) (Scalar.ofBits .f32 0x43000000#32) = _
    have e2 : (shapeCast S1000x1 (multiReduction .add [1] S1000 H 0x00000000#32 reduces_S1000x128_S1000 (.inl rfl) rfl) shapeCasts_S1000_S1000x1) (ix2 r (0 : Fin 1)) = ∑ k : Fin 128, H (ix2 r k) := by
      refine (shapeCast_apply _ _ (ix2 r (0 : Fin 1)) (ix1 r) (by rw [Shape.rowMajor_val_one, Shape.rowMajor_val_two]; show r.val = r.val * 1 + 0; omega)).trans ?_
      exact sum_row H r
    rw [e2]
    rfl
  rw [e]
  rfl

/-- The sum along row r of the squared centred block is the row's sum of squared deviations from its mean. -/
theorem sq_row (H : FVec Ideal S1000x128 .f32) (r : Fin 1000) :
    multiReduction .add [1] S1000 (mulf (subf H (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128)) (subf H (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128))) 0x00000000#32 reduces_S1000x128_S1000 (.inl rfl) rfl (ix1 r)
      = ∑ k : Fin 128, (H (ix2 r k) - rowMean (fun o' => H (ix2 r o'))) * (H (ix2 r k) - rowMean (fun o' => H (ix2 r o'))) := by
  refine (sum_row _ r).trans ?_
  refine Finset.sum_congr rfl (fun k _ => ?_)
  show FloatOps.mulf ((subf H (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128)) (ix2 r k)) ((subf H (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128)) (ix2 r k)) = _
  rw [centered_at H r k]
  rfl

/-- The body's expression over an arbitrary block H in place of the linear layer's output: at (r, o) it is the
    normalised, scaled, shifted, rectified row r of H. -/
theorem body_at (H : FVec Ideal S1000x128 .f32) (P6 P7 : Vec Ideal S1x128 .f32) (r : Fin 1000) (o : Fin 128) :
    Scalar.select (FloatOps.cmpf .oge (FloatOps.addf (FloatOps.mulf (FloatOps.mulf (FloatOps.subf (H (Cert.KernelIdeal.Value.ix8_0 (ix2 r o))) (FloatOps.divf ((multiReduction .add [1] S1000 H 0x00000000#32 reduces_S1000x128_S1000 (.inl rfl) rfl) (Cert.KernelIdeal.Value.ix8_1 (ix2 r o))) (Scalar.ofBits .f32 0x43000000#32))) (FloatOps.rsqrt (FloatOps.addf (FloatOps.divf ((multiReduction .add [1] S1000 (mulf (subf H (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128)) (subf H (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128))) 0x00000000#32 reduces_S1000x128_S1000 (.inl rfl) rfl) (Cert.KernelIdeal.Value.ix8_2 (ix2 r o))) (Scalar.ofBits .f32 0x43000000#32)) (Scalar.ofBits .f32 0x3727C5AC#32)))) (P6 (Cert.KernelIdeal.Value.ix8_3 (ix2 r o)))) (P7 (Cert.KernelIdeal.Value.ix8_4 (ix2 r o)))) (Scalar.ofBits .f32 0x00000000#32)) (FloatOps.addf (FloatOps.mulf (FloatOps.mulf (FloatOps.subf (H (Cert.KernelIdeal.Value.ix8_5 (ix2 r o))) (FloatOps.divf ((multiReduction .add [1] S1000 H 0x00000000#32 reduces_S1000x128_S1000 (.inl rfl) rfl) (Cert.KernelIdeal.Value.ix8_6 (ix2 r o))) (Scalar.ofBits .f32 0x43000000#32))) (FloatOps.rsqrt (FloatOps.addf (FloatOps.divf ((multiReduction .add [1] S1000 (mulf (subf H (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128)) (subf H (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128))) 0x00000000#32 reduces_S1000x128_S1000 (.inl rfl) rfl) (Cert.KernelIdeal.Value.ix8_7 (ix2 r o))) (Scalar.ofBits .f32 0x43000000#32)) (Scalar.ofBits .f32 0x3727C5AC#32)))) (P6 (Cert.KernelIdeal.Value.ix8_8 (ix2 r o)))) (P7 (Cert.KernelIdeal.Value.ix8_9 (ix2 r o)))) (FloatOps.mulf (Scalar.ofBits .f32 0x3E4CCCCD#32) (FloatOps.addf (FloatOps.mulf (FloatOps.mulf (FloatOps.subf (H (Cert.KernelIdeal.Value.ix8_10 (ix2 r o))) (FloatOps.divf ((multiReduction .add [1] S1000 H 0x00000000#32 reduces_S1000x128_S1000 (.inl rfl) rfl) (Cert.KernelIdeal.Value.ix8_11 (ix2 r o))) (Scalar.ofBits .f32 0x43000000#32))) (FloatOps.rsqrt (FloatOps.addf (FloatOps.divf ((multiReduction .add [1] S1000 (mulf (subf H (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128)) (subf H (broadcastTo S1000x128 (divf (shapeCast S1000x1 (multiReduction .add [1] S1000 H 0x00000000#32 reduces_S1000x128_S1000 (.inl rfl) rfl) shapeCasts_S1000_S1000x1) (broadcast S1000x1 (Scalar.ofBits .f32 0x43000000#32))) broadcasts_S1000x1_S1000x128))) 0x00000000#32 reduces_S1000x128_S1000 (.inl rfl) rfl) (Cert.KernelIdeal.Value.ix8_12 (ix2 r o))) (Scalar.ofBits .f32 0x43000000#32)) (Scalar.ofBits .f32 0x3727C5AC#32)))) (P6 (Cert.KernelIdeal.Value.ix8_13 (ix2 r o)))) (P7 (Cert.KernelIdeal.Value.ix8_14 (ix2 r o)))))
      = actRsqrt (fun o' => H (ix2 r o')) o (P6 (ix2 (0 : Fin 1) o)) (P7 (ix2 (0 : Fin 1) o)) := by
  have j0 : Cert.KernelIdeal.Value.ix8_0 (ix2 r o) = ix2 r o := by
    funext a; match a with | ⟨0, _⟩ => rfl | ⟨1, _⟩ => rfl
  have j1 : Cert.KernelIdeal.Value.ix8_1 (ix2 r o) = ix1 r := by
    funext a; match a with | ⟨0, _⟩ => rfl
  have j2 : Cert.KernelIdeal.Value.ix8_2 (ix2 r o) = ix1 r := by
    funext a; match a with | ⟨0, _⟩ => rfl
  have j3 : Cert.KernelIdeal.Value.ix8_3 (ix2 r o) = ix2 (0 : Fin 1) o := by
    funext a; match a with | ⟨0, _⟩ => rfl | ⟨1, _⟩ => rfl
  have j4 : Cert.KernelIdeal.Value.ix8_4 (ix2 r o) = ix2 (0 : Fin 1) o := by
    funext a; match a with | ⟨0, _⟩ => rfl | ⟨1, _⟩ => rfl
  have j5 : Cert.KernelIdeal.Value.ix8_5 (ix2 r o) = ix2 r o := by
    funext a; match a with | ⟨0, _⟩ => rfl | ⟨1, _⟩ => rfl
  have j6 : Cert.KernelIdeal.Value.ix8_6 (ix2 r o) = ix1 r := by
    funext a; match a with | ⟨0, _⟩ => rfl
  have j7 : Cert.KernelIdeal.Value.ix8_7 (ix2 r o) = ix1 r := by
    funext a; match a with | ⟨0, _⟩ => rfl
  have j8 : Cert.KernelIdeal.Value.ix8_8 (ix2 r o) = ix2 (0 : Fin 1) o := by
    funext a; match a with | ⟨0, _⟩ => rfl | ⟨1, _⟩ => rfl
  have j9 : Cert.KernelIdeal.Value.ix8_9 (ix2 r o) = ix2 (0 : Fin 1) o := by
    funext a; match a with | ⟨0, _⟩ => rfl | ⟨1, _⟩ => rfl
  have j10 : Cert.KernelIdeal.Value.ix8_10 (ix2 r o) = ix2 r o := by
    funext a; match a with | ⟨0, _⟩ => rfl | ⟨1, _⟩ => rfl
  have j11 : Cert.KernelIdeal.Value.ix8_11 (ix2 r o) = ix1 r := by
    funext a; match a with | ⟨0, _⟩ => rfl
  have j12 : Cert.KernelIdeal.Value.ix8_12 (ix2 r o) = ix1 r := by
    funext a; match a with | ⟨0, _⟩ => rfl
  have j13 : Cert.KernelIdeal.Value.ix8_13 (ix2 r o) = ix2 (0 : Fin 1) o := by
    funext a; match a with | ⟨0, _⟩ => rfl | ⟨1, _⟩ => rfl
  have j14 : Cert.KernelIdeal.Value.ix8_14 (ix2 r o) = ix2 (0 : Fin 1) o := by
    funext a; match a with | ⟨0, _⟩ => rfl | ⟨1, _⟩ => rfl
  rw [j0, j1, j2, j3, j4, j5, j6, j7, j8, j9, j10, j11, j12, j13, j14]
  rw [sum_row H r, sq_row H r]
  unfold actRsqrt leaky rowMean rowVar
  rfl

/-- The body's block at (r, o). -/
theorem block_at (P0 : Vec Ideal S1000x16x1 .f32) (P1 : Vec Ideal S1000x16x128 .f32) (P2 : Vec Ideal S1000x128 .f32)
    (P3 P4 : Vec Ideal S128x128 .bf16) (P5 P6 P7 : Vec Ideal S1x128 .f32) (r : Fin 1000) (o : Fin 128) :
    Cert.KernelIdeal.Value.E8 (F := Ideal) P0 P1 P2 P3 P4 P5 P6 P7 (ix2 r o)
      = actRsqrt (fun o' => linSplit (fun k => P2 (ix2 r k))
            (fun f => meanNb (fun j => P1 (ix3 r j f)) (fun j => P0 (ix3 r j (0 : Fin 1))))
            (fun k => P3 (ix2 o' k)) (fun k => P4 (ix2 o' k)) (P5 (ix2 (0 : Fin 1) o')))
          o (P6 (ix2 (0 : Fin 1) o)) (P7 (ix2 (0 : Fin 1) o)) := by
  have hrow : (fun o' => k0_pay2 (F := Ideal) P0 P1 P2 P3 P4 P5 (ix2 r o'))
      = fun o' => linSplit (fun k => P2 (ix2 r k))
            (fun f => meanNb (fun j => P1 (ix3 r j f)) (fun j => P0 (ix3 r j (0 : Fin 1))))
            (fun k => P3 (ix2 o' k)) (fun k => P4 (ix2 o' k)) (P5 (ix2 (0 : Fin 1) o')) :=
    funext fun o' => Cert.KernelPay.pay2_at P0 P1 P2 P3 P4 P5 r o'
  rw [← hrow]
  exact body_at (k0_pay2 (F := Ideal) P0 P1 P2 P3 P4 P5) P6 P7 r o

end Cert.KernelRow

end
-- ==== Proof.Blocks.lean ====
/-
  From blocks to the array.  The grid has 100 points; point t stages rows 1000 t … 1000 t + 999 of the features, of the
  gathered neighbour rows and of the marks, and the whole of the two weight blocks, the bias, the scale and the shift; it
  writes back rows 1000 t … 1000 t + 999 of the result.  What it writes back is, entry by entry, the function `outArr` of
  the arrays the region finds; the 100 blocks tile the result, so after the run the result array is `outArr`.
-/
import proofs.«427107_j12919261627019_2_alg».proof.Proof.Gen.KernelIdeal.Value
import proofs.«427107_j12919261627019_2_alg».proof.Proof.Arrays
import proofs.«427107_j12919261627019_2_alg».proof.Proof.KernelRow

noncomputable section

namespace Cert.KernelBlocks

open Idealize.ShloMosaic Idealize.ShloMosaic.TcCoe Idealize.ShloMosaic.ValueIdx Idealize.SL.Sem
open Idealize.ShloMosaic.Pipeline (Dat)
open Cert.KernelIdeal Cert.KernelIdeal.Gen Cert.KernelArrays

variable (m : (ℓ : Loc nD τ sig) → Buf (Elt Ideal) ℓ) (ρ : Dev nD → PrngReg)

open Cert.FaceLayer

/-! ## Whole-block rectangles and the body's block -/

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves, at a block index, from the eight blocks in window order: each load through a whole-block
    rectangle is the block itself, and the one store covers the buffer. -/
theorem out_at (x0 : Vec Ideal S1000x128 .f32) (x1 : Vec Ideal S1000x16x128 .f32) (x2 : Vec Ideal S1000x16x1 .f32)
    (x3 x4 : Vec Ideal S128x128 .bf16) (x5 x6 x7 : Vec Ideal S1x128 .f32) (y : S1000x128.Idx) :
    out0_8 x0 x1 x2 x3 x4 x5 x6 x7 y = Cert.KernelIdeal.Value.E8 (F := Ideal) x2 x1 x0 x3 x4 x5 x6 x7 y := by
  unfold out0_8
  simp only [View.ld_unit_zero (S := S1000x16x1) hz3, View.ld_unit_zero (S := S1000x16x128) hz3,
    View.ld_unit_zero (S := S1000x128) hz2, View.ld_unit_zero (S := S128x128) hz2, View.ld_unit_zero (S := S1x128) hz2]
  exact Cert.KernelIdeal.Value.canon8_eq (F := Ideal) x2 x1 x0 x3 x4 x5 x6 x7 y

/-- Entry (r, o) of what the body leaves is the layer of row r of the features, neighbour and mark blocks. -/
theorem out_ix2 (x0 : Vec Ideal S1000x128 .f32) (x1 : Vec Ideal S1000x16x128 .f32) (x2 : Vec Ideal S1000x16x1 .f32)
    (x3 x4 : Vec Ideal S128x128 .bf16) (x5 x6 x7 : Vec Ideal S1x128 .f32) (r : Fin 1000) (o : Fin 128) :
    out0_8 x0 x1 x2 x3 x4 x5 x6 x7 (ix2 r o)
      = actRsqrt (fun o' => linSplit (fun k => x0 (ix2 r k))
            (fun f => meanNb (fun j => x1 (ix3 r j f)) (fun j => x2 (ix3 r j (0 : Fin 1))))
            (fun k => x3 (ix2 o' k)) (fun k => x4 (ix2 o' k)) (x5 (ix2 (0 : Fin 1) o')))
          o (x6 (ix2 (0 : Fin 1) o)) (x7 (ix2 (0 : Fin 1) o)) :=
  (out_at x0 x1 x2 x3 x4 x5 x6 x7 (ix2 r o)).trans (Cert.KernelRow.block_at x2 x1 x0 x3 x4 x5 x6 x7 r o)

/-! ## The index maps -/

/-- The index maps, decided over the 100 grid points: the features, neighbour, mark and result windows sit at block t
    along the faces and block 0 elsewhere; the weight, bias, scale and shift windows sit at block 0. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 100 := lt_of_lt_of_eq t.isLt (show cfg0.N = 100 from N_0)

/-- Row r of point t's blocks is face 1000 t + r. -/
abbrev face (t : Fin cfg0.N) (r : Fin 1000) : Fin 100000 := ⟨1000 * t.val + r.val, by have := t_lt t; omega⟩

/-! ## The blocks, read off the arrays: a block's coordinate is block index × block size + the coordinate inside -/

/-- Row r of point t's features block is row `face t r` of the features. -/
theorem emb0_at (t : Fin cfg0.N) (r : Fin 1000) (k : Fin 128) :
    ((cfg0.win 0).blk t).view.emb (ix2 r k) = ix2 (face t r) k := by
  obtain ⟨e0, e1, -⟩ := idx_facts t
  funext a; apply Fin.ext
  match a with
  | ⟨0, _⟩ => show win0_0.index t (0 : Fin 2) * 1000 + 1 * r.val = 1000 * t.val + r.val; rw [e0, Nat.one_mul, Nat.mul_comm]
  | ⟨1, _⟩ => show win0_0.index t (1 : Fin 2) * 128 + 1 * k.val = k.val; rw [e1, Nat.zero_mul, Nat.zero_add, Nat.one_mul]

theorem emb1_at (t : Fin cfg0.N) (r : Fin 1000) (j : Fin 16) (f : Fin 128) :
    ((cfg0.win 1).blk t).view.emb (ix3 r j f) = ix3 (face t r) j f := by
  obtain ⟨-, -, e0, e1, e2, -⟩ := idx_facts t
  funext a; apply Fin.ext
  match a with
  | ⟨0, _⟩ => show win0_1.index t (0 : Fin 3) * 1000 + 1 * r.val = 1000 * t.val + r.val; rw [e0, Nat.one_mul, Nat.mul_comm]
  | ⟨1, _⟩ => show win0_1.index t (1 : Fin 3) * 16 + 1 * j.val = j.val; rw [e1, Nat.zero_mul, Nat.zero_add, Nat.one_mul]
  | ⟨2, _⟩ => show win0_1.index t (2 : Fin 3) * 128 + 1 * f.val = f.val; rw [e2, Nat.zero_mul, Nat.zero_add, Nat.one_mul]

theorem emb2_at (t : Fin cfg0.N) (r : Fin 1000) (j : Fin 16) (z : Fin 1) :
    ((cfg0.win 2).blk t).view.emb (ix3 r j z) = ix3 (face t r) j z := by
  obtain ⟨-, -, -, -, -, e0, e1, e2, -⟩ := idx_facts t
  funext a; apply Fin.ext
  match a with
  | ⟨0, _⟩ => show win0_2.index t (0 : Fin 3) * 1000 + 1 * r.val = 1000 * t.val + r.val; rw [e0, Nat.one_mul, Nat.mul_comm]
  | ⟨1, _⟩ => show win0_2.index t (1 : Fin 3) * 16 + 1 * j.val = j.val; rw [e1, Nat.zero_mul, Nat.zero_add, Nat.one_mul]
  | ⟨2, _⟩ => show win0_2.index t (2 : Fin 3) * 1 + 1 * z.val = z.val; rw [e2, Nat.zero_mul, Nat.zero_add, Nat.one_mul]

theorem emb3_at (t : Fin cfg0.N) (o k : Fin 128) : ((cfg0.win 3).blk t).view.emb (ix2 o k) = ix2 o k := by
  obtain ⟨-, -, -, -, -, -, -, -, e0, e1, -⟩ := idx_facts t
  funext a; apply Fin.ext
  match a with
  | ⟨0, _⟩ => show win0_3.index t (0 : Fin 2) * 128 + 1 * o.val = o.val; rw [e0, Nat.zero_mul, Nat.zero_add, Nat.one_mul]
  | ⟨1, _⟩ => show win0_3.index t (1 : Fin 2) * 128 + 1 * k.val = k.val; rw [e1, Nat.zero_mul, Nat.zero_add, Nat.one_mul]

theorem emb4_at (t : Fin cfg0.N) (o k : Fin 128) : ((cfg0.win 4).blk t).view.emb (ix2 o k) = ix2 o k := by
  obtain ⟨-, -, -, -, -, -, -, -, -, -, e0, e1, -⟩ := idx_facts t
  funext a; apply Fin.ext
  match a with
  | ⟨0, _⟩ => show win0_4.index t (0 : Fin 2) * 128 + 1 * o.val = o.val; rw [e0, Nat.zero_mul, Nat.zero_add, Nat.one_mul]
  | ⟨1, _⟩ => show win0_4.index t (1 : Fin 2) * 128 + 1 * k.val = k.val; rw [e1, Nat.zero_mul, Nat.zero_add, Nat.one_mul]

theorem emb5_at (t : Fin cfg0.N) (z : Fin 1) (o : Fin 128) : ((cfg0.win 5).blk t).view.emb (ix2 z o) = ix2 z o := by
  obtain ⟨-, -, -, -, -, -, -, -, -, -, -, -, e0, e1, -⟩ := idx_facts t
  funext a; apply Fin.ext
  match a with
  | ⟨0, _⟩ => show win0_5.index t (0 : Fin 2) * 1 + 1 * z.val = z.val; rw [e0, Nat.zero_mul, Nat.zero_add, Nat.one_mul]
  | ⟨1, _⟩ => show win0_5.index t (1 : Fin 2) * 128 + 1 * o.val = o.val; rw [e1, Nat.zero_mul, Nat.zero_add, Nat.one_mul]

theorem emb6_at (t : Fin cfg0.N) (z : Fin 1) (o : Fin 128) : ((cfg0.win 6).blk t).view.emb (ix2 z o) = ix2 z o := by
  obtain ⟨-, -, -, -, -, -, -, -, -, -, -, -, -, -, e0, e1, -⟩ := idx_facts t
  funext a; apply Fin.ext
  match a with
  | ⟨0, _⟩ => show win0_6.index t (0 : Fin 2) * 1 + 1 * z.val = z.val; rw [e0, Nat.zero_mul, Nat.zero_add, Nat.one_mul]
  | ⟨1, _⟩ => show win0_6.index t (1 : Fin 2) * 128 + 1 * o.val = o.val; rw [e1, Nat.zero_mul, Nat.zero_add, Nat.one_mul]

theorem emb7_at (t : Fin cfg0.N) (z : Fin 1) (o : Fin 128) : ((cfg0.win 7).blk t).view.emb (ix2 z o) = ix2 z o := by
  obtain ⟨-, -, -, -, -, -, -, -, -, -, -, -, -, -, -, -, e0, e1, -⟩ := idx_facts t
  funext a; apply Fin.ext
  match a with
  | ⟨0, _⟩ => show win0_7.index t (0 : Fin 2) * 1 + 1 * z.val = z.val; rw [e0, Nat.zero_mul, Nat.zero_add, Nat.one_mul]
  | ⟨1, _⟩ => show win0_7.index t (1 : Fin 2) * 128 + 1 * o.val = o.val; rw [e1, Nat.zero_mul, Nat.zero_add, Nat.one_mul]

/-- Where entry (r, o) of point t's result block sits in the result array. -/
theorem emb8_at (t : Fin cfg0.N) (r : Fin 1000) (o : Fin 128) :
    ((cfg0.win 8).blk t).view.emb (ix2 r o) = ix2 (face t r) o := by
  obtain ⟨-, -, -, -, -, -, -, -, -, -, -, -, -, -, -, -, -, -, e0, e1⟩ := idx_facts t
  funext a; apply Fin.ext
  match a with
  | ⟨0, _⟩ => show win0_8.index t (0 : Fin 2) * 1000 + 1 * r.val = 1000 * t.val + r.val; rw [e0, Nat.one_mul, Nat.mul_comm]
  | ⟨1, _⟩ => show win0_8.index t (1 : Fin 2) * 128 + 1 * o.val = o.val; rw [e1, Nat.zero_mul, Nat.zero_add, Nat.one_mul]

/-! ## A block of ANY array through its window, entry by entry -/

theorem read0_at (t : Fin cfg0.N) (A : Vec Ideal S100000x128 .f32) (r : Fin 1000) (k : Fin 128) :
    ((cfg0.win 0).blk t).view.read (Elt Ideal) A (ix2 r k) = A (ix2 (face t r) k) := by
  show A (((cfg0.win 0).blk t).view.emb (ix2 r k)) = A (ix2 (face t r) k)
  rw [emb0_at t r k]

theorem read1_at (t : Fin cfg0.N) (A : Vec Ideal S100000x16x128 .f32) (r : Fin 1000) (j : Fin 16) (f : Fin 128) :
    ((cfg0.win 1).blk t).view.read (Elt Ideal) A (ix3 r j f) = A (ix3 (face t r) j f) := by
  show A (((cfg0.win 1).blk t).view.emb (ix3 r j f)) = A (ix3 (face t r) j f)
  rw [emb1_at t r j f]

theorem read2_at (t : Fin cfg0.N) (A : Vec Ideal S100000x16x1 .f32) (r : Fin 1000) (j : Fin 16) (z : Fin 1) :
    ((cfg0.win 2).blk t).view.read (Elt Ideal) A (ix3 r j z) = A (ix3 (face t r) j z) := by
  show A (((cfg0.win 2).blk t).view.emb (ix3 r j z)) = A (ix3 (face t r) j z)
  rw [emb2_at t r j z]

theorem read3_at (t : Fin cfg0.N) (A : Vec Ideal S128x128 .bf16) (o k : Fin 128) :
    ((cfg0.win 3).blk t).view.read (Elt Ideal) A (ix2 o k) = A (ix2 o k) := by
  show A (((cfg0.win 3).blk t).view.emb (ix2 o k)) = A (ix2 o k)
  rw [emb3_at t o k]

theorem read4_at (t : Fin cfg0.N) (A : Vec Ideal S128x128 .bf16) (o k : Fin 128) :
    ((cfg0.win 4).blk t).view.read (Elt Ideal) A (ix2 o k) = A (ix2 o k) := by
  show A (((cfg0.win 4).blk t).view.emb (ix2 o k)) = A (ix2 o k)
  rw [emb4_at t o k]

theorem read5_at (t : Fin cfg0.N) (A : Vec Ideal S1x128 .f32) (z : Fin 1) (o : Fin 128) :
    ((cfg0.win 5).blk t).view.read (Elt Ideal) A (ix2 z o) = A (ix2 z o) := by
  show A (((cfg0.win 5).blk t).view.emb (ix2 z o)) = A (ix2 z o)
  rw [emb5_at t z o]

theorem read6_at (t : Fin cfg0.N) (A : Vec Ideal S1x128 .f32) (z : Fin 1) (o : Fin 128) :
    ((cfg0.win 6).blk t).view.read (Elt Ideal) A (ix2 z o) = A (ix2 z o) := by
  show A (((cfg0.win 6).blk t).view.emb (ix2 z o)) = A (ix2 z o)
  rw [emb6_at t z o]

theorem read7_at (t : Fin cfg0.N) (A : Vec Ideal S1x128 .f32) (z : Fin 1) (o : Fin 128) :
    ((cfg0.win 7).blk t).view.read (Elt Ideal) A (ix2 z o) = A (ix2 z o) := by
  show A (((cfg0.win 7).blk t).view.emb (ix2 z o)) = A (ix2 z o)
  rw [emb7_at t z o]

/-! ## The blocks of the arrays the region finds -/

theorem blk0_at (c : Dev nD) (t : Fin cfg0.N) (r : Fin 1000) (k : Fin 128) :
    iblk m c 0 t (ix2 r k) = ffArr m c (ix2 (face t r) k) := read0_at t (ffArr m c) r k
theorem blk1_at (c : Dev nD) (t : Fin cfg0.N) (r : Fin 1000) (j : Fin 16) (f : Fin 128) :
    iblk m c 1 t (ix3 r j f) = nbArr m c (ix3 (face t r) j f) := read1_at t (nbArr m c) r j f
theorem blk2_at (c : Dev nD) (t : Fin cfg0.N) (r : Fin 1000) (j : Fin 16) (z : Fin 1) :
    iblk m c 2 t (ix3 r j z) = mkArr m c (ix3 (face t r) j z) := read2_at t (mkArr m c) r j z
theorem blk3_at (c : Dev nD) (t : Fin cfg0.N) (o k : Fin 128) :
    iblk m c 3 t (ix2 o k) = w1Arr m c (ix2 o k) := read3_at t (w1Arr m c) o k
theorem blk4_at (c : Dev nD) (t : Fin cfg0.N) (o k : Fin 128) :
    iblk m c 4 t (ix2 o k) = w2Arr m c (ix2 o k) := read4_at t (w2Arr m c) o k
theorem blk5_at (c : Dev nD) (t : Fin cfg0.N) (z : Fin 1) (o : Fin 128) :
    iblk m c 5 t (ix2 z o) = bArr m c (ix2 z o) := read5_at t (bArr m c) z o
theorem blk6_at (c : Dev nD) (t : Fin cfg0.N) (z : Fin 1) (o : Fin 128) :
    iblk m c 6 t (ix2 z o) = gArr m c (ix2 z o) := read6_at t (gArr m c) z o
theorem blk7_at (c : Dev nD) (t : Fin cfg0.N) (z : Fin 1) (o : Fin 128) :
    iblk m c 7 t (ix2 z o) = beArr m c (ix2 z o) := read7_at t (beArr m c) z o

/-! ## What a point writes back -/

/-- A block X written back through the result window is block t of an array G as soon as it is so entry by entry. -/
theorem flushed_of (t : Fin cfg0.N) (X : Vec Ideal S1000x128 .f32) (G : Vec Ideal S100000x128 .f32)
    (h : ∀ (r : Fin 1000) (o : Fin 128), X (ix2 r o) = G (ix2 (face t r) o)) :
    (cfg0.win 8).cut (grid0.coords t) X = ((cfg0.win 8).blk t).view.read (Elt Ideal) G := by
  funext y
  show X y = G (((cfg0.win 8).blk t).view.emb y)
  obtain ⟨r, o, rfl⟩ : ∃ (r : Fin 1000) (o : Fin 128), y = ix2 r o := ⟨y 0, y 1, eq_ix2 y⟩
  rw [emb8_at t r o]
  exact h r o

/-- Entry (r, o) of what the body leaves at point t is entry (1000 t + r, o) of `outArr`. -/
theorem entry_eq (c : Dev nD) (t : Fin cfg0.N) (r : Fin 1000) (o : Fin 128) :
    out0_8 (iblk m c 0 t) (iblk m c 1 t) (iblk m c 2 t) (iblk m c 3 t) (iblk m c 4 t) (iblk m c 5 t) (iblk m c 6 t) (iblk m c 7 t) (ix2 r o)
      = outArr m c (ix2 (face t r) o) := by
  refine (out_ix2 _ _ _ _ _ _ _ _ r o).trans ?_
  refine Eq.trans ?_ (outArr_ix2 m c (face t r) o).symm
  unfold outAt
  simp only [blk0_at m c t, blk1_at m c t, blk2_at m c t, blk3_at m c t, blk4_at m c t, blk5_at m c t, blk6_at m c t, blk7_at m c t]

/-- Point t writes back block t of `outArr`. -/
theorem flushed_eq (c : Dev nD) (t : Fin cfg0.N) :
    (dats m 0 c).flushed 8 t = ((cfg0.win 8).blk t).view.read (Elt Ideal) (outArr m c) := by
  rw [Cert.KernelIdeal.Value.flushed8]
  exact flushed_of t _ (outArr m c) (entry_eq m c t)

/-! ## The blocks tile the result -/

/-- An index of the result is in point t's block iff each coordinate is in the block's range on its axis. -/
theorem mem_blk (t : Fin cfg0.N) (i : S100000x128.Idx) :
    i ∈ ((cfg0.win 8).blk t).view.set ↔ ∀ a : Fin 2, win0_8.index t a * S1000x128.size a ≤ (i a).val ∧ (i a).val < win0_8.index t a * S1000x128.size a + S1000x128.size a := by
  show i ∈ ((View.whole main_v13).slice (win0_8.rect t)).set ↔ _
  rw [View.set_slice_whole, Rect.mem_set_unit]
  exact Iff.rfl

/-- Face p is in the block of point p / 1000. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 100 := N_0
  let t : Fin cfg0.N := ⟨(i 0).val / 1000, by rw [hN]; omega⟩
  have htv : t.val = (i 0).val / 1000 := rfl
  obtain ⟨-, -, -, -, -, -, -, -, -, -, -, -, -, -, -, -, -, -, e0, e1⟩ := idx_facts t
  refine ⟨t, flush0_8 t, ?_⟩
  rw [mem_blk]
  intro a
  match a with
  | ⟨0, _⟩ => show win0_8.index t (0 : Fin 2) * 1000 ≤ (i 0).val ∧ (i 0).val < win0_8.index t (0 : Fin 2) * 1000 + 1000; omega
  | ⟨1, _⟩ => show win0_8.index t (1 : Fin 2) * 128 ≤ (i 1).val ∧ (i 1).val < win0_8.index t (1 : Fin 2) * 128 + 128; omega

/-- After the run the result array is `outArr` of the arrays the region finds. -/
theorem final (c : Dev nD) : (dats m 0 c).arrAt 8 cfg0.N = outArr m c :=
  (dats m 0 c).arrAt_eq_of_cover 8 (outArr m c) (fun t _ => flushed_eq m c t) cover

/-- The kernel's run, with its result named and its arguments unchanged. -/
theorem run : θ_run defs (onTc (τ := τ) (main (F := Ideal))) ⟨m, fun _ => 0, ρ⟩ fun r => ∀ c : Dev nD,
      r.2.mem ((c : Thread nD τ).loc main_v13) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelBlocks

end
-- ==== Proof.Windows.lean ====
/-
  The arrays the kernel's region finds, against the reference's own intermediate arrays and the arguments.
    * The marks are computed by the same host operations in both programs.
    * The gathered neighbour rows: both programs clip each neighbour index at zero and gather; the kernel's program then
      replaces a row by a fill value where the clipped index is not below 100000.  Where every neighbour index is below
      100000 nothing is replaced, and the two arrays are the same.
    * The two weight blocks are the left and right halves of the weight matrix (a change of float format is the identity
      on extended reals); bias, scale and shift are the arguments re-laid as one row.
-/
import proofs.«427107_j12919261627019_2_alg».proof.Proof.Gen.KernelIdeal.Frame
import proofs.«427107_j12919261627019_2_alg».proof.Proof.Gen.ReferenceIdeal.Read
import proofs.«427107_j12919261627019_2_alg».proof.Proof.Arrays
import Idealize.ShloMosaic.Lib.ValueLayout

noncomputable section

namespace Cert.KernelWindows

open Idealize.ShloMosaic Idealize.ShloMosaic.TcCoe Idealize.ShloMosaic.ValueIdx Idealize.SL.Sem
open Cert.KernelIdeal Cert.KernelIdeal.Gen Cert.KernelArrays

variable (m : (ℓ : Loc nD τ sig) → Buf (Elt Ideal) ℓ)

/-- The features are the argument. -/
theorem ff_eq (c : Dev nD) : ffArr m c = m ((c : Thread nD τ).loc main_arg0) := V_main_arg0 m c

/-! ### Signed 32-bit words -/

private theorem toInt_lit0 : (0#32 : BitVec 32).toInt = 0 := by decide
private theorem toInt_lit1 : (100000#32 : BitVec 32).toInt = 100000 := by decide
private theorem toInt_lit2 : (99999#32 : BitVec 32).toInt = 99999 := by decide

/-- A signed word below 100000, clipped at zero, is not negative (so adding 100000 to negative words leaves it
    alone) and is at most 99999: both of its bounds marks are 1. -/
private theorem word_in_bounds (x : BitVec 32) (hx : BitVec.slt x 100000#32 = true) :
    IntOp.andi
      (IntOp.cmpi .sge (Scalar.select (IntOp.cmpi .slt (IntOp.maxsi 0#32 x) 0#32) (IntOp.addi (IntOp.maxsi 0#32 x) 100000#32) (IntOp.maxsi 0#32 x)) 0#32)
      (IntOp.cmpi .sle (Scalar.select (IntOp.cmpi .slt (IntOp.maxsi 0#32 x) 0#32) (IntOp.addi (IntOp.maxsi 0#32 x) 100000#32) (IntOp.maxsi 0#32 x)) 99999#32) = 1#1 := by
  have hx' : x.toInt < 100000 := by
    have h := hx
    simp only [BitVec.slt, decide_eq_true_eq, toInt_lit1] at h
    exact h
  generalize hv : IntOp.maxsi 0#32 x = v
  have hv0 : 0 ≤ v.toInt ∧ v.toInt < 100000 := by
    rw [← hv]
    show 0 ≤ (if x.slt 0#32 then 0#32 else x).toInt ∧ (if x.slt 0#32 then 0#32 else x).toInt < 100000
    by_cases h : x.slt 0#32 = true
    · rw [if_pos h, toInt_lit0]; omega
    · rw [if_neg h]
      simp only [BitVec.slt, decide_eq_true_eq, toInt_lit0] at h
      omega
  have hs : IntOp.cmpi .slt v 0#32 = 0#1 := by
    show BitVec.ofBool (v.slt 0#32) = 0#1
    have : v.slt 0#32 = false := by
      simp only [BitVec.slt, decide_eq_false_iff_not, toInt_lit0]; omega
    rw [this]; rfl
  rw [hs]
  show IntOp.andi (BitVec.ofBool ((0#32 : BitVec 32).sle v)) (BitVec.ofBool (v.sle 99999#32)) = 1#1
  have h1 : (0#32 : BitVec 32).sle v = true := by
    simp only [BitVec.sle, decide_eq_true_eq, toInt_lit0]; omega
  have h2 : v.sle 99999#32 = true := by
    simp only [BitVec.sle, decide_eq_true_eq, toInt_lit2]; omega
  rw [h1, h2]; rfl

/-! ### A conjunction of ones -/

/-- A left fold by `and` from 1 over one-bit words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a]
    exact foldl_andi_ones x hx l

/-- A reduction by `and`, from 1, of an array of ones is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ q, init q = 1#1) (j : t.Idx) :
    Host.reduce IntOp.andi x init h hu j = 1#1 := by
  rw [Host.reduce_eq_foldl, hi]
  exact foldl_andi_ones x hx _

/-- Contents carried to a buffer's own type and back are unchanged. -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-! ### The gathered rows -/

/-- The neighbour indices clipped at zero. -/
def clipT (a : IVec S100000x16 32) : IVec S100000x16 32 :=
  maxsi (broadcastInDim S100000x16 ![] bcast_S_S100000x16 (id (constantI S_ 32 0#32))) a

/-- The index words handed to the gather: the clipped indices, a negative one moved up by 100000. -/
def idxT (a : IVec S100000x16 32) : IVec S100000x16x1 32 :=
  broadcastInDim S100000x16x1 ![0, 1] bcast_S100000x16_S100000x16x1_0_1
    (select (cmpi .slt (clipT a) (broadcastInDim S100000x16 ![] bcast_S_S100000x16 (constantI S_ 32 0#32)))
      (addi (clipT a) (broadcastInDim S100000x16 ![] bcast_S_S100000x16 (constantI S_ 32 100000#32))) (clipT a))

/-- The bounds marks of the index words: 1 where the word lies in [0, 99999]. -/
def inbT (a : IVec S100000x16 32) : IVec S100000x16 1 :=
  Host.reduce IntOp.andi
    (andi (cmpi .sge (idxT a) (broadcastInDim S100000x16x1 ![] bcast_S_S100000x16x1 (constantI S_ 32 0#32)))
      (cmpi .sle (idxT a) (broadcastInDim S100000x16x1 ![0, 1, 2] bcast_S1x1x1_S100000x16x1_0_1_2
        (broadcastInDim S1x1x1 ![2] bcast_S1_S1x1x1_2 (constantI S1 32 99999#32)))))
    (constantI S_ 1 1#1) reducesTo_S100000x16x1_S100000x16_d2 h_S_

/-- Where every neighbour index is below 100000, every bounds mark is 1. -/
theorem inb_ones (a : IVec S100000x16 32) (hlt : ∀ i : S100000x16.Idx, BitVec.slt (a i) 100000#32 = true) (q : S100000x16.Idx) :
    inbT a q = 1#1 := by
  unfold inbT
  refine reduce_andi_ones _ _ _ _ (fun i => ?_) (fun _ => rfl) q
  exact word_in_bounds _ (hlt _)

/-- Where every neighbour index is below 100000, choosing by the bounds marks keeps every gathered row. -/
theorem select_inb (a : IVec S100000x16 32) (hlt : ∀ i : S100000x16.Idx, BitVec.slt (a i) 100000#32 = true)
    (G fill : Vec Ideal S100000x16x128 .f32) :
    select (broadcastInDim S100000x16x128 ![0, 1] bcast_S100000x16_S100000x16x128_0_1 (inbT a)) G fill = G := by
  funext j
  show Scalar.select (inbT a _) (G j) (fill j) = G j
  rw [inb_ones a hlt]
  rfl

/-! ### The arrays as the host operations' terms -/

/-- The marks: 1.0 where the neighbour index is not −1, as a trailing unit axis. -/
theorem mk_e (c : Dev nD) : (V m c main_v4 : Vec Ideal S100000x16x1 .f32) =
    broadcastInDim S100000x16x1 ![0, 1] bcast_S100000x16_S100000x16x1_0_1
      (uitofp (F := Ideal) .f32 (cmpi .ne (m ((c : Thread nD τ).loc main_arg1) : IVec S100000x16 32)
        (broadcastInDim S100000x16 ![] bcast_S_S100000x16 (constantI S_ 32 4294967295#32)))) := by
  dsimp only [Cert.KernelIdeal.Gen.V]
  simp only [hostOps0, hostOps0_1, hostOps0_2, hostOps0_3, hostOps0_4, List.flatten_cons, List.flatten_nil, List.append_nil, List.cons_append, List.nil_append]
  after_results

set_option maxHeartbeats 1000000 in
/-- The gathered rows: the gather at the index words, a row replaced by the fill value where its bounds mark is 0. -/
theorem nb_e (c : Dev nD) : (V m c main_v5 : Vec Ideal S100000x16x128 .f32) =
    select (broadcastInDim S100000x16x128 ![0, 1] bcast_S100000x16_S100000x16x128_0_1 (inbT (m ((c : Thread nD τ).loc main_arg1) : IVec S100000x16 32)))
      (Host.gather gather_S100000x128_S100000x16x1_S100000x16x128_2_0_n_n_0_2_1128
        (m ((c : Thread nD τ).loc main_arg0) : Vec Ideal S100000x128 .f32) (idxT (m ((c : Thread nD τ).loc main_arg1) : IVec S100000x16 32)))
      (broadcastInDim S100000x16x128 ![] bcast_S_S100000x16x128 (constant (F := Ideal) S_ .f32 0x7FC00000#32)) := by
  dsimp only [Cert.KernelIdeal.Gen.V]
  simp only [hostOps0, hostOps0_1, hostOps0_2, hostOps0_3, hostOps0_4, List.flatten_cons, List.flatten_nil, List.append_nil, List.cons_append, List.nil_append]
  after_results_simp
  simp only [ofBuf_toBuf]
  simp only [StableHlo.TRef.ofBuf, StableHlo.TRef.toBuf, cast_eq]
  rfl

/-- The first weight block: the left 128 columns of the weights. -/
theorem w1_e (c : Dev nD) : (V m c main_v8 : Vec Ideal S128x128 .bf16) = truncf (F := Ideal) .bf16 (extractStridedSlice S128x128 ![0, 0] (m ((c : Thread nD τ).loc main_arg2) : Vec Ideal S128x256 .f32) slices_S128x256_S128x128_0_0) bitsLt_bf16_f32 := by
  dsimp only [Cert.KernelIdeal.Gen.V]
  simp only [hostOps0, hostOps0_1, hostOps0_2, hostOps0_3, hostOps0_4, List.flatten_cons, List.flatten_nil, List.append_nil, List.cons_append, List.nil_append]
  after_results
/-- The second weight block: the right 128 columns of the weights. -/
theorem w2_e (c : Dev nD) : (V m c main_v9 : Vec Ideal S128x128 .bf16) = truncf (F := Ideal) .bf16 (extractStridedSlice S128x128 ![0, 128] (m ((c : Thread nD τ).loc main_arg2) : Vec Ideal S128x256 .f32) slices_S128x256_S128x128_0_128) bitsLt_bf16_f32 := by
  dsimp only [Cert.KernelIdeal.Gen.V]
  simp only [hostOps0, hostOps0_1, hostOps0_2, hostOps0_3, hostOps0_4, List.flatten_cons, List.flatten_nil, List.append_nil, List.cons_append, List.nil_append]
  after_results

/-- Bias, scale, shift: the arguments re-laid as one row. -/
theorem b_e (c : Dev nD) : (V m c main_v10 : Vec Ideal S1x128 .f32) = shapeCast S1x128 (m ((c : Thread nD τ).loc main_arg3) : Vec Ideal S128 .f32) shapeCasts_S128_S1x128 := by
  dsimp only [Cert.KernelIdeal.Gen.V]
  simp only [hostOps0, hostOps0_1, hostOps0_2, hostOps0_3, hostOps0_4, List.flatten_cons, List.flatten_nil, List.append_nil, List.cons_append, List.nil_append]
  after_results
  rfl
theorem g_e (c : Dev nD) : (V m c main_v11 : Vec Ideal S1x128 .f32) = shapeCast S1x128 (m ((c : Thread nD τ).loc main_arg4) : Vec Ideal S128 .f32) shapeCasts_S128_S1x128 := by
  dsimp only [Cert.KernelIdeal.Gen.V]
  simp only [hostOps0, hostOps0_1, hostOps0_2, hostOps0_3, hostOps0_4, List.flatten_cons, List.flatten_nil, List.append_nil, List.cons_append, List.nil_append]
  after_results
  rfl
theorem be_e (c : Dev nD) : (V m c main_v12 : Vec Ideal S1x128 .f32) = shapeCast S1x128 (m ((c : Thread nD τ).loc main_arg5) : Vec Ideal S128 .f32) shapeCasts_S128_S1x128 := by
  dsimp only [Cert.KernelIdeal.Gen.V]
  simp only [hostOps0, hostOps0_1, hostOps0_2, hostOps0_3, hostOps0_4, List.flatten_cons, List.flatten_nil, List.append_nil, List.cons_append, List.nil_append]
  after_results
  rfl

/-- The marks are the reference's marks of the same neighbour indices. -/
theorem mk_eq (c : Dev nD) :
    mkArr m c = Cert.ReferenceIdeal.Read.val_main_v3 (F := Ideal) (m ((c : Thread nD τ).loc main_arg1)) := by
  show (V m c main_v4 : Vec Ideal S100000x16x1 .f32) = _
  rw [mk_e]
  rfl

/-- The reference gathers at the same index words. -/
theorem ref_idx (a : IVec S100000x16 32) : Cert.ReferenceIdeal.Read.val_main_v10 (F := Ideal) a = idxT a := rfl

/-- Where every neighbour index is below 100000, the gathered rows are the reference's gathered rows. -/
theorem nb_eq (c : Dev nD)
    (hlt : ∀ i : S100000x16.Idx, BitVec.slt ((m ((c : Thread nD τ).loc main_arg1) : IVec S100000x16 32) i) 100000#32 = true) :
    nbArr m c = Cert.ReferenceIdeal.Read.val_main_v11 (F := Ideal) (m ((c : Thread nD τ).loc main_arg0))
      (m ((c : Thread nD τ).loc main_arg1)) := by
  show (V m c main_v5 : Vec Ideal S100000x16x128 .f32) = _
  rw [nb_e, select_inb _ hlt]
  unfold Cert.ReferenceIdeal.Read.val_main_v11
  rw [ref_idx]
  rfl

/-- The first weight block is the left half of the weights. -/
theorem w1_at (c : Dev nD) (o k : Fin 128) :
    w1Arr m c (ix2 o k) = (m ((c : Thread nD τ).loc main_arg2) : Vec Ideal S128x256 .f32) (ix2 o (⟨k.val, by omega⟩ : Fin 256)) := by
  show (V m c main_v8 : Vec Ideal S128x128 .bf16) (ix2 o k) = _
  rw [w1_e]
  show extractStridedSlice S128x128 ![0, 0] (m ((c : Thread nD τ).loc main_arg2) : Vec Ideal S128x256 .f32) slices_S128x256_S128x128_0_0 (ix2 o k) = _
  exact extractStridedSlice_apply _ _ _ _ _ (fun a => match a with
    | ⟨0, _⟩ => by show o.val = 0 + o.val; omega
    | ⟨1, _⟩ => by show k.val = 0 + k.val; omega)

/-- The second weight block is the right half of the weights. -/
theorem w2_at (c : Dev nD) (o k : Fin 128) :
    w2Arr m c (ix2 o k) = (m ((c : Thread nD τ).loc main_arg2) : Vec Ideal S128x256 .f32) (ix2 o (⟨k.val + 128, by omega⟩ : Fin 256)) := by
  show (V m c main_v9 : Vec Ideal S128x128 .bf16) (ix2 o k) = _
  rw [w2_e]
  show extractStridedSlice S128x128 ![0, 128] (m ((c : Thread nD τ).loc main_arg2) : Vec Ideal S128x256 .f32) slices_S128x256_S128x128_0_128 (ix2 o k) = _
  exact extractStridedSlice_apply _ _ _ _ _ (fun a => match a with
    | ⟨0, _⟩ => by show o.val = 0 + o.val; omega
    | ⟨1, _⟩ => by show k.val + 128 = 128 + k.val; omega)

/-- Bias, scale and shift: the arguments as one row. -/
theorem b_at (c : Dev nD) (o : Fin 128) :
    bArr m c (ix2 (0 : Fin 1) o) = (m ((c : Thread nD τ).loc main_arg3) : Vec Ideal S128 .f32) (ix1 o) := by
  show (V m c main_v10 : Vec Ideal S1x128 .f32) (ix2 (0 : Fin 1) o) = _
  rw [b_e]
  exact shapeCast_a_1a_apply _ _ _ _
theorem g_at (c : Dev nD) (o : Fin 128) :
    gArr m c (ix2 (0 : Fin 1) o) = (m ((c : Thread nD τ).loc main_arg4) : Vec Ideal S128 .f32) (ix1 o) := by
  show (V m c main_v11 : Vec Ideal S1x128 .f32) (ix2 (0 : Fin 1) o) = _
  rw [g_e]
  exact shapeCast_a_1a_apply _ _ _ _
theorem be_at (c : Dev nD) (o : Fin 128) :
    beArr m c (ix2 (0 : Fin 1) o) = (m ((c : Thread nD τ).loc main_arg5) : Vec Ideal S128 .f32) (ix1 o) := by
  show (V m c main_v12 : Vec Ideal S1x128 .f32) (ix2 (0 : Fin 1) o) = _
  rw [be_e]
  exact shapeCast_a_1a_apply _ _ _ _

end Cert.KernelWindows

end
-- ==== Proof.RefRow.lean ====
/-
  One entry of the reference's result: at face p, output o it is the layer of Spec.lean (joined contraction, division by
  the square root) of the features, the reference's own gathered neighbour array and mark array, the weights, bias,
  scale and shift.
-/
import proofs.«427107_j12919261627019_2_alg».proof.Proof.Gen.ReferenceIdeal.Read
import proofs.«427107_j12919261627019_2_alg».proof.Proof.Spec

noncomputable section

namespace Cert.RefRow

open Idealize.ShloMosaic Idealize.ShloMosaic.ValueIdx
open Cert.ReferenceIdeal Cert.ReferenceIdeal.Gen Cert.ReferenceIdeal.Read Cert.FaceLayer

section Stages

variable (x0 : (⟨S100000x128, .f32⟩ : BufTy).Contents (Elt Ideal)) (x1 : (⟨S100000x16, .i32⟩ : BufTy).Contents (Elt Ideal))
  (x2 : (⟨S128x256, .f32⟩ : BufTy).Contents (Elt Ideal)) (x3 x4 x5 : (⟨S128, .f32⟩ : BufTy).Contents (Elt Ideal))

/-! ### The neighbours' masked mean -/

/-- The number of marks of face p, at least one. -/
theorem v13_at (p : Fin 100000) :
    val_main_v13 (F := Ideal) x1 (ix2 p (0 : Fin 1))
      = max cOne (∑ j : Fin 16, val_main_v3 (F := Ideal) x1 (ix3 p j (0 : Fin 1))) := by
  rw [val_main_v13_apply, val_main_call1_v1_apply, val_main_call1_v0_apply, val_main_cst_3_apply,
    val_main_v12_apply, val_main_cst_apply]
  have e : ∀ k : Fin 16, idx_main_v12 (ix2 p (0 : Fin 1)) k = ix3 p k (0 : Fin 1) := fun k =>
    funext fun a => Fin.ext (by match a with | ⟨0, _⟩ => rfl | ⟨1, _⟩ => rfl | ⟨2, _⟩ => rfl)
  simp only [e, Ideal.maximumf_def, Ideal.ofBits_def, Ideal.ofBits_zero_f32, zero_add]

/-- The masked mean of feature f over the neighbours of face p. -/
theorem v18_at (p : Fin 100000) (f : Fin 128) :
    val_main_v18 (F := Ideal) x0 x1 (ix2 p f)
      = meanNb (fun j => val_main_v11 (F := Ideal) x0 x1 (ix3 p j f))
          (fun j => val_main_v3 (F := Ideal) x1 (ix3 p j (0 : Fin 1))) := by
  rw [val_main_v18_apply, val_main_v17_apply, val_main_v16_apply, val_main_cst_4_apply]
  have e17 : idx_main_v17 (ix2 p f) = ix2 p (0 : Fin 1) :=
    funext fun a => Fin.ext (by match a with | ⟨0, _⟩ => rfl | ⟨1, _⟩ => rfl)
  have e16 : ∀ k : Fin 16, idx_main_v16 (ix2 p f) k = ix3 p k f := fun k =>
    funext fun a => Fin.ext (by match a with | ⟨0, _⟩ => rfl | ⟨1, _⟩ => rfl | ⟨2, _⟩ => rfl)
  have e14 : ∀ k : Fin 16, idx_main_v14 (ix3 p k f) = ix3 p k (0 : Fin 1) := fun k =>
    funext fun a => Fin.ext (by match a with | ⟨0, _⟩ => rfl | ⟨1, _⟩ => rfl | ⟨2, _⟩ => rfl)
  rw [e17, v13_at]
  unfold meanNb
  simp only [e16, val_main_v15_apply, val_main_v14_apply, e14, Ideal.hostDivf_def, Ideal.mulf_def, Ideal.ofBits_def,
    Ideal.ofBits_zero_f32, zero_add]

/-! ### The joined row -/

/-- The concatenation at column k: the features below the joint, the mean past it. -/
theorem v19_at (p : Fin 100000) (k : Fin 256) :
    val_main_v19 (F := Ideal) x0 x1 (ix2 p k)
      = join (fun k => x0 (ix2 p k)) (fun f => val_main_v18 (F := Ideal) x0 x1 (ix2 p f)) k := by
  unfold val_main_v19 join
  by_cases h : k.val < 128
  · rw [dif_pos h]
    exact concatenate_pair_apply_left _ x0 (val_main_v18 (F := Ideal) x0 x1)
      concatenates_S100000x128_S100000x128_S100000x256_d1 (ix2 p k) rfl (ix2 p (⟨k.val, h⟩ : Fin 128))
      (fun b => by match b with | ⟨0, _⟩ => rfl | ⟨1, _⟩ => rfl)
  · rw [dif_neg h]
    exact concatenate_pair_apply_right _ x0 (val_main_v18 (F := Ideal) x0 x1)
      concatenates_S100000x128_S100000x128_S100000x256_d1 (ix2 p k) rfl rfl
      (ix2 p (⟨k.val - 128, by omega⟩ : Fin 128))
      (fun b hb => by match b, hb with | ⟨0, _⟩, _ => rfl | ⟨1, _⟩, hb => exact absurd rfl hb)
      (by show (k.val - 128) + 128 = k.val; omega)

/-! ### The linear layer -/

/-- Output o' of the linear layer at face p: the joined contraction and the bias. -/
theorem v24_at (p : Fin 100000) (o : Fin 128) :
    val_main_v24 (F := Ideal) x0 x1 x2 x3 (ix2 p o)
      = linJoined (fun k => x0 (ix2 p k))
          (fun f => meanNb (fun j => val_main_v11 (F := Ideal) x0 x1 (ix3 p j f))
            (fun j => val_main_v3 (F := Ideal) x1 (ix3 p j (0 : Fin 1))))
          (fun k => x2 (ix2 o k)) (x3 (ix1 o)) := by
  rw [val_main_v24_apply, val_main_v21_apply, val_main_v23_apply, val_main_v22_apply]
  have el : ∀ k : Fin 256, lidx_main_v21 (ix2 p o) k = ix2 p k := fun k =>
    funext fun a => Fin.ext (by match a with | ⟨0, _⟩ => rfl | ⟨1, _⟩ => rfl)
  have er : ∀ k : Fin 256, ridx_main_v21 (ix2 p o) k = ix2 k o := fun k =>
    funext fun a => Fin.ext (by match a with | ⟨0, _⟩ => rfl | ⟨1, _⟩ => rfl)
  have e20 : ∀ k : Fin 256, idx_main_v20 (ix2 k o) = ix2 o k := fun k =>
    funext fun a => Fin.ext (by match a with | ⟨0, _⟩ => rfl | ⟨1, _⟩ => rfl)
  have e23 : idx_main_v22 (idx_main_v23 (ix2 p o)) = ix1 o :=
    funext fun a => Fin.ext (by match a with | ⟨0, _⟩ => rfl)
  rw [e23]
  unfold linJoined
  simp only [el, er, val_main_v20_apply, e20, v19_at, v18_at, Ideal.addf_def]

/-! ### The normalisation of the row -/

/-- The row's mean. -/
theorem v28_at (p : Fin 100000) :
    val_main_v28 (F := Ideal) x0 x1 x2 x3 (ix2 p (0 : Fin 1))
      = rowMean (fun o' => val_main_v24 (F := Ideal) x0 x1 x2 x3 (ix2 p o')) := by
  rw [val_main_v28_apply, val_main_v26_apply, val_main_v25_apply, val_main_cst_5_apply, val_main_v27_apply,
    val_main_cst_6_apply]
  have e : ∀ k : Fin 128, idx_main_v25 (idx_main_v26 (ix2 p (0 : Fin 1))) k = ix2 p k := fun k =>
    funext fun a => Fin.ext (by match a with | ⟨0, _⟩ => rfl | ⟨1, _⟩ => rfl)
  unfold rowMean
  simp only [e, Ideal.hostDivf_def, Ideal.ofBits_def, Ideal.ofBits_zero_f32, zero_add]

/-- The row's variance. -/
theorem v35_at (p : Fin 100000) :
    val_main_v35 (F := Ideal) x0 x1 x2 x3 (ix2 p (0 : Fin 1))
      = rowVar (fun o' => val_main_v24 (F := Ideal) x0 x1 x2 x3 (ix2 p o')) := by
  rw [val_main_v35_apply, val_main_v33_apply, val_main_v32_apply, val_main_cst_7_apply, val_main_v34_apply,
    val_main_cst_8_apply]
  have e32 : ∀ k : Fin 128, idx_main_v32 (idx_main_v33 (ix2 p (0 : Fin 1))) k = ix2 p k := fun k =>
    funext fun a => Fin.ext (by match a with | ⟨0, _⟩ => rfl | ⟨1, _⟩ => rfl)
  have e29 : ∀ k : Fin 128, idx_main_v29 (ix2 p k) = ix2 p (0 : Fin 1) := fun k =>
    funext fun a => Fin.ext (by match a with | ⟨0, _⟩ => rfl | ⟨1, _⟩ => rfl)
  unfold rowVar
  simp only [e32, val_main_v31_apply, val_main_v30_apply, val_main_v29_apply, e29, v28_at, Ideal.hostDivf_def,
    Ideal.mulf_def, Ideal.subf_def, Ideal.ofBits_def, Ideal.ofBits_zero_f32, zero_add]

/-- The normalised, scaled, shifted entry. -/
theorem v48_at (p : Fin 100000) (o : Fin 128) :
    val_main_v48 (F := Ideal) x0 x1 x2 x3 x4 x5 (ix2 p o)
      = Ideal.div (val_main_v24 (F := Ideal) x0 x1 x2 x3 (ix2 p o)
            - rowMean (fun o' => val_main_v24 (F := Ideal) x0 x1 x2 x3 (ix2 p o')))
          (Ideal.sqrt (rowVar (fun o' => val_main_v24 (F := Ideal) x0 x1 x2 x3 (ix2 p o')) + cEps))
          * x4 (ix1 o) + x5 (ix1 o) := by
  rw [val_main_v48_apply, val_main_v45_apply, val_main_v42_apply, val_main_v37_apply, val_main_v36_apply,
    val_main_v41_apply, val_main_v40_apply, val_main_v39_apply, val_main_v38_apply, val_main_cst_9_apply,
    val_main_v44_apply, val_main_v43_apply, val_main_v47_apply, val_main_v46_apply]
  have e36 : idx_main_v36 (ix2 p o) = ix2 p (0 : Fin 1) :=
    funext fun a => Fin.ext (by match a with | ⟨0, _⟩ => rfl | ⟨1, _⟩ => rfl)
  have e41 : idx_main_v41 (ix2 p o) = ix2 p (0 : Fin 1) :=
    funext fun a => Fin.ext (by match a with | ⟨0, _⟩ => rfl | ⟨1, _⟩ => rfl)
  have e44 : idx_main_v43 (idx_main_v44 (ix2 p o)) = ix1 o :=
    funext fun a => Fin.ext (by match a with | ⟨0, _⟩ => rfl)
  have e47 : idx_main_v46 (idx_main_v47 (ix2 p o)) = ix1 o :=
    funext fun a => Fin.ext (by match a with | ⟨0, _⟩ => rfl)
  rw [e36, e41, e44, e47, v28_at, v35_at]
  rfl

/-- The result at (p, o): the rectified entry, over the row of the linear layer's outputs. -/
theorem v53_row (p : Fin 100000) (o : Fin 128) :
    val_main_v53 (F := Ideal) x0 x1 x2 x3 x4 x5 (ix2 p o)
      = actDiv (fun o' => val_main_v24 (F := Ideal) x0 x1 x2 x3 (ix2 p o')) o (x4 (ix1 o)) (x5 (ix1 o)) := by
  rw [val_main_v53_apply, val_main_v50_apply, val_main_v52_apply, val_main_v49_apply, val_main_cst_10_apply,
    val_main_v51_apply, val_main_cst_11_apply, v48_at]
  rfl

end Stages

/-- The reference's result at (p, o). -/
theorem ref_at (x0 : (⟨S100000x128, .f32⟩ : BufTy).Contents (Elt Ideal)) (x1 : (⟨S100000x16, .i32⟩ : BufTy).Contents (Elt Ideal))
    (x2 : (⟨S128x256, .f32⟩ : BufTy).Contents (Elt Ideal)) (x3 x4 x5 : (⟨S128, .f32⟩ : BufTy).Contents (Elt Ideal))
    (p : Fin 100000) (o : Fin 128) :
    val_main_v53 (F := Ideal) x0 x1 x2 x3 x4 x5 (ix2 p o)
      = layer (fun p k => x0 (ix2 p k)) (fun p j f => val_main_v11 (F := Ideal) x0 x1 (ix3 p j f))
          (fun p j => val_main_v3 (F := Ideal) x1 (ix3 p j (0 : Fin 1))) (fun o k => x2 (ix2 o k))
          (fun o => x3 (ix1 o)) (fun o => x4 (ix1 o)) (fun o => x5 (ix1 o)) p o := by
  rw [v53_row]
  have hrow : (fun o' : Fin 128 => val_main_v24 (F := Ideal) x0 x1 x2 x3 (ix2 p o'))
      = fun o' => linJoined (fun k => x0 (ix2 p k))
          (fun f => meanNb (fun j => val_main_v11 (F := Ideal) x0 x1 (ix3 p j f))
            (fun j => val_main_v3 (F := Ideal) x1 (ix3 p j (0 : Fin 1))))
          (fun k => x2 (ix2 o' k)) (x3 (ix1 o')) := funext fun o' => v24_at x0 x1 x2 x3 p o'
  rw [hrow]
  rfl

end Cert.RefRow

end
-- ==== Proof.Bridge.lean ====
/-
  The kernel's result array is the reference's result, where every neighbour index is below 100000.

  Entry (p, o) of the kernel's result is the layer in its split, reciprocal-square-root form over the arrays the region
  finds; those arrays are the arguments, the reference's own marks and — under the bound on the neighbour indices — the
  reference's own gathered rows.  The reference's result at (p, o) is the layer in its joined, division form over the same
  data.  The two forms are equal: the 256-term contraction splits at the joint, and on a positive argument dividing by the
  square root is multiplying by its reciprocal.
-/
import proofs.«427107_j12919261627019_2_alg».proof.Proof.Arrays
import proofs.«427107_j12919261627019_2_alg».proof.Proof.Windows
import proofs.«427107_j12919261627019_2_alg».proof.Proof.RefRow
import proofs.«427107_j12919261627019_2_alg».proof.Proof.Gen.ReferenceIdeal.Read

noncomputable section

namespace Cert.Bridge

open Idealize.ShloMosaic Idealize.ShloMosaic.TcCoe Idealize.ShloMosaic.ValueIdx Idealize.SL.Sem
open Cert.KernelIdeal Cert.KernelIdeal.Gen Cert.KernelArrays Cert.KernelWindows Cert.FaceLayer

variable (m : (ℓ : Loc nD τ sig) → Buf (Elt Ideal) ℓ)

/-- Under the bound on the neighbour indices the kernel's result array is the reference's last stage of the same arguments. -/
theorem outArr_eq (c : Dev nD)
    (hlt : ∀ i : S100000x16.Idx, BitVec.slt ((m ((c : Thread nD τ).loc main_arg1) : IVec S100000x16 32) i) 100000#32 = true) :
    outArr m c = Cert.ReferenceIdeal.Read.val_main_v53 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  funext i
  obtain ⟨p, o, rfl⟩ : ∃ (p : Fin 100000) (o : Fin 128), i = ix2 p o := ⟨i 0, i 1, eq_ix2 i⟩
  rw [outArr_ix2, Cert.RefRow.ref_at]
  unfold outAt layer
  rw [← actRsqrt_eq_actDiv]
  have hrow : (fun o' : Fin 128 => linSplit (fun k => ffArr m c (ix2 p k))
        (fun f => meanNb (fun j => nbArr m c (ix3 p j f)) (fun j => mkArr m c (ix3 p j (0 : Fin 1))))
        (fun k => w1Arr m c (ix2 o' k)) (fun k => w2Arr m c (ix2 o' k)) (bArr m c (ix2 (0 : Fin 1) o')))
      = fun o' : Fin 128 => linJoined (fun k => (m ((c : Thread nD τ).loc main_arg0) : Vec Ideal S100000x128 .f32) (ix2 p k))
        (fun f => meanNb (fun j => Cert.ReferenceIdeal.Read.val_main_v11 (F := Ideal) (m ((c : Thread nD τ).loc main_arg0)) (m ((c : Thread nD τ).loc main_arg1)) (ix3 p j f))
          (fun j => Cert.ReferenceIdeal.Read.val_main_v3 (F := Ideal) (m ((c : Thread nD τ).loc main_arg1)) (ix3 p j (0 : Fin 1))))
        (fun k => (m ((c : Thread nD τ).loc main_arg2) : Vec Ideal S128x256 .f32) (ix2 o' k))
        ((m ((c : Thread nD τ).loc main_arg3) : Vec Ideal S128 .f32) (ix1 o')) := by
    funext o'
    rw [← linSplit_eq_linJoined, ff_eq m c, mk_eq m c, nb_eq m c hlt, b_at m c o']
    congr 1 <;> funext k
    · exact w1_at m c o' k
    · exact w2_at m c o' k
  rw [hrow, g_at m c o, be_at m c o]

end Cert.Bridge

end
-- ==== Proof.lean ====
/-
  The certificate of the face layer: a kernel that, for each of 100000 faces, averages the marked rows among sixteen
  gathered neighbour rows, applies a linear layer to the face's own features joined with that average, normalises the 128
  outputs by their mean and variance, scales, shifts and rectifies them — against the same computation written with
  whole-array operations.

  The statement carries, beside the finiteness of the float inputs, the condition that every neighbour index is below
  100000, the number of faces: beyond it the reference's own indexing runs past the end of the feature array.

    * The three frames are the generated ones (the reference's is its run with the result dropped).
    * The idealization rewrote nothing, so there is nothing to preserve.
    * The value claim: the kernel's run leaves, block by block, the layer in its split form with the reciprocal square
      root (Blocks.lean over KernelRow.lean and KernelPay.lean); under the bound on the indices the arrays its region
      finds are the reference's own (Windows.lean, Pre.lean); the reference's result is the layer in its joined form with
      the division by the square root (RefRow.lean); and the two forms are one function (Spec.lean, Bridge.lean).
-/
import proofs.«427107_j12919261627019_2_alg».proof.Defs
import proofs.«427107_j12919261627019_2_alg».proof.Proof.Gen.Kernel
import proofs.«427107_j12919261627019_2_alg».proof.Proof.Gen.Kernel.Skeleton
import proofs.«427107_j12919261627019_2_alg».proof.Proof.Gen.Kernel.Launch
import proofs.«427107_j12919261627019_2_alg».proof.Proof.Gen.Kernel.Points
import proofs.«427107_j12919261627019_2_alg».proof.Proof.Gen.Kernel.Frame
import proofs.«427107_j12919261627019_2_alg».proof.Proof.Gen.KernelIdeal
import proofs.«427107_j12919261627019_2_alg».proof.Proof.Gen.KernelIdeal.Skeleton
import proofs.«427107_j12919261627019_2_alg».proof.Proof.Gen.KernelIdeal.Launch
import proofs.«427107_j12919261627019_2_alg».proof.Proof.Gen.KernelIdeal.Points
import proofs.«427107_j12919261627019_2_alg».proof.Proof.Gen.KernelIdeal.Frame
import proofs.«427107_j12919261627019_2_alg».proof.Proof.Gen.ReferenceIdeal
import proofs.«427107_j12919261627019_2_alg».proof.Proof.Gen.Pre_finite_inputs
import proofs.«427107_j12919261627019_2_alg».proof.Proof.Gen.KernelIdeal.Value
import proofs.«427107_j12919261627019_2_alg».proof.Proof.Gen.ReferenceIdeal.Run
import proofs.«427107_j12919261627019_2_alg».proof.Proof.Gen.ReferenceIdeal.Read
import proofs.«427107_j12919261627019_2_alg».proof.Proof.Pre
import proofs.«427107_j12919261627019_2_alg».proof.Proof.Blocks
import proofs.«427107_j12919261627019_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the kernel's result array: the kernel's by its blocks, the reference's because its last stage, of
    arguments that agree and whose neighbour indices are below 100000, is that array. -/
theorem algebraic : Cert.algebraic_KernelIdeal_ReferenceIdeal := by
  intro m ρ m' ρ' hpre hagree
  refine ⟨fun c => Cert.KernelArrays.outArr m c, Cert.KernelBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2.1, (hagree c).2.2.1, (hagree c).2.2.2.1,
    (hagree c).2.2.2.2.1, (hagree c).2.2.2.2.2]
  exact (Cert.Bridge.outArr_eq m c (fun i => Cert.PreDecode.adj_lt m hpre c i)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
